-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S256x4096 : Shape := ⟨2, ![256, 4096]⟩
abbrev S512x4096 : Shape := ⟨2, ![512, 4096]⟩
abbrev S256x1 : Shape := ⟨2, ![256, 1]⟩
abbrev S1x512 : Shape := ⟨2, ![1, 512]⟩
abbrev S256x512 : Shape := ⟨2, ![256, 512]⟩
abbrev S256 : Shape := ⟨1, ![256]⟩

abbrev nBuf : Space → Nat
  | .hbm => 16
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S4096x1, .f32⟩
  | .hbm, ⟨13, _⟩ => ⟨S1x4096, .f32⟩
  | .hbm, ⟨14, _⟩ => ⟨S4096x1, .f32⟩
  | .hbm, ⟨15, _⟩ => ⟨S4096, .f32⟩
  | .local _ .vmem, ⟨0, _⟩ => ⟨S256x4096, .bf16⟩
  | .local _ .vmem, ⟨1, _⟩ => ⟨S256x4096, .bf16⟩
  | .local _ .vmem, ⟨2, _⟩ => ⟨S512x4096, .bf16⟩
  | .local _ .vmem, ⟨3, _⟩ => ⟨S512x4096, .bf16⟩
  | .local _ .vmem, ⟨4, _⟩ => ⟨S256x4096, .bf16⟩
  | .local _ .vmem, ⟨5, _⟩ => ⟨S256x4096, .bf16⟩
  | .local _ .vmem, ⟨6, _⟩ => ⟨S512x4096, .bf16⟩
  | .local _ .vmem, ⟨7, _⟩ => ⟨S512x4096, .bf16⟩
  | .local _ .vmem, ⟨8, _⟩ => ⟨S256x1, .f32⟩
  | .local _ .vmem, ⟨9, _⟩ => ⟨S256x1, .f32⟩
  | .local _ .vmem, ⟨10, _⟩ => ⟨S1x512, .f32⟩
  | .local _ .vmem, ⟨11, _⟩ => ⟨S1x512, .f32⟩
  | .local _ .vmem, ⟨12, _⟩ => ⟨S256x1, .f32⟩
  | .local _ .vmem, ⟨13, _⟩ => ⟨S256x1, .f32⟩
  | .local _ .vmem, ⟨14, _⟩ => ⟨S1x512, .f32⟩
  | .local _ .vmem, ⟨15, _⟩ => ⟨S1x512, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  reducesTo_S4096x4096_S4096_d1 : S4096x4096.ReducesTo [1] S4096
  h_S_ : 0 < S_.numel
  shapeCasts_S4096_S4096x1 : S4096.ShapeCasts S4096x1
  shapeCasts_S4096_S1x4096 : S4096.ShapeCasts S1x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S256x1_S256x512 : S256x1.Broadcasts S256x512
  broadcasts_S1x512_S256x512 : S1x512.Broadcasts S256x512
  reduces_S256x512_S256 : S256x512.Reduces [1] S256
  shapeCasts_S256_S256x1 : S256.ShapeCasts S256x1
  shapeCasts_S4096x1_S4096 : S4096x1.ShapeCasts S4096
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S4096x1.size a
  hwx0_8 : ∀ i : grid0.Coords, EltTy.bits .f32 = 32 ∨ (Rect.block (s := S4096x1) S256x1.size (cc0_transform_8 i) (hinb0_8 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x4096, .f32⟩
  | .hbm, ⟨22, _⟩ => ⟨S4096x1, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.FrameKernel.Base.lean ====
/-
  What every part of this program's frame shares. The program is: twelve host operations (two casts, two rows-of-squares
  sums, four reshapes), one pipelined region over a grid of 16 × 8 points, and one reshape of the region's result.
  At grid point (i, n) the region's body is handed block i of 256 rows and block n of 512 rows of each of the two cast
  matrices (two windows on ONE array each), the matching pieces of the two squared-norm vectors, and keeps a 256 × 1
  accumulator in scratch memory: it clears the accumulator where n = 0, adds one partial sum at every point, and where
  n = 7 stores the negated accumulator into the output block i. Stated here: the buffers' contents when the region
  is entered (`V`), that @main reduces to the region continued by the last reshape (`hmain`), a window's block at a
  point read off its array (`iblk`), the two conditions of the body in closed form over the grid, where the output
  window is idle, and the names of the staging and scratch memrefs.
-/
import proofs.«157485_j45664092291536_1_alg».proof.Proof.Gen.Kernel.Launch
import proofs.«157485_j45664092291536_1_alg».proof.Proof.Gen.Kernel.Skeleton
import proofs.«157485_j45664092291536_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the twelve host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    CONTINUED BY the reshape, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host operations before the region write neither argument: the arguments are as launched. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "This is the first point of its row of the grid" (`n = 0`): the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last point of its row of the grid" (`n = 7`): the negated accumulator is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from the last point of a row the body stores nothing into the output window, and the pipeline does not write it back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point of a row the body stores the whole output block. -/
theorem liveAt0_8 : ∀ t : Fin cfg0.N, cond0_1 (grid0.coords t) → cfg0.idle 8 (grid0.coords t) = false := by decide +kernel

/-! ## The memrefs the body is called with -/

/-- One staging buffer of the output window, through which its contents are stated. -/
abbrev VO0_8 : View sig .tc .vmem S256x1 .f32 := (Memref.whole cc0_stg8_0 : Memref sig .tc .vmem S256x1 .f32).view
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
/-- The accumulator: a whole scoped buffer of the kernel's own, passed beside the windows. -/
abbrev scM0_0 : Memref sig .tc .vmem S256x1 .f32 := Memref.whole cc0_scratch0
/-- The accumulator as a view: what it holds is stated through it. -/
abbrev VS0_0 : View sig .tc .vmem S256x1 .f32 := scM0_0.view

/-- The region's plain invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.FrameKernel.RunA.lean ====
/-
  The kernel body run at the first point of a grid row (n = 0): the accumulator, at anything, is cleared and then takes the point's partial sum; the output block is not touched.
  The run is a triple over whole staging memrefs: the eight inputs at their contents come back as they were, and what
  the body's stores leave in the accumulator (and, at a row's last point, in the output block) is a list of written
  pieces that the symbolic run finds.
-/
import proofs.«157485_j45664092291536_1_alg».proof.Proof.FrameKernel.Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point of a grid row (n = 0). -/
noncomputable def kernelRun0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) :
    Σ' (L8 : List (View.Piece (Elt F) S256x1 .f32)), { LS0 : List (View.Piece (Elt F) S256x1 .f32) //
      ∀ (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Frame

end
-- ==== Proof.FrameKernel.RunB.lean ====
/-
  The kernel body run at a middle point of a grid row (0 < n < 7): the accumulator, at what the point before left, takes the point's partial sum; the output block is not touched.
  The run is a triple over whole staging memrefs: the eight inputs at their contents come back as they were, and what
  the body's stores leave in the accumulator (and, at a row's last point, in the output block) is a list of written
  pieces that the symbolic run finds.
-/
import proofs.«157485_j45664092291536_1_alg».proof.Proof.FrameKernel.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle point of a grid row (0 < n < 7). -/
noncomputable def kernelRun0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) :
    Σ' (L8 : List (View.Piece (Elt F) S256x1 .f32)), { LS0 : List (View.Piece (Elt F) S256x1 .f32) //
      ∀ (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Frame

end
-- ==== Proof.FrameKernel.RunC.lean ====
/-
  The kernel body run at the last point of a grid row (n = 7): the accumulator, at what the point before left, takes the point's partial sum, and its negation is stored into the output block.
  The run is a triple over whole staging memrefs: the eight inputs at their contents come back as they were, and what
  the body's stores leave in the accumulator (and, at a row's last point, in the output block) is a list of written
  pieces that the symbolic run finds.
-/
import proofs.«157485_j45664092291536_1_alg».proof.Proof.FrameKernel.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point of a grid row (n = 7). -/
noncomputable def kernelRun0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) :
    Σ' (L8 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Frame

end
-- ==== Proof.FrameKernel.Inv.lean ====
/-
  Two small things the proof data and the launch agree on. The shares: each of the two cast matrices is read through
  two input windows (a block of 256 rows and a block of 512 rows), so each of those windows holds HALF of its matrix;
  every other array is held outright. And the region's invariant between grid points: the kernel's one scoped buffer
  that is no staging buffer, the 256 × 1 accumulator, owned whole at some contents.
-/
import proofs.«157485_j45664092291536_1_alg».proof.Proof.FrameKernel.Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each window holds: the two windows on a shared array a half each. -/
def qShare : Fin 9 → PosShare TreeShare := fun w => match w with
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare
  | ⟨7, _⟩ => fullShare
  | ⟨8, _⟩ => fullShare

/-- The scoped buffers the pipeline does not stage are the accumulator alone, as a memref owned at some contents. -/
theorem scopedRest0_owns (c : Dev nD) :
    (Pipeline.scopedRest spec0 c : sProp 𝕄) = iprop(∃ d, owns (c : Thread nD τ) scM0_0 fullShare d) := by
  rw [scopedRest0_eq]; simp only [scM0_0, owns_whole]; try rfl

end Cert.Kernel.Frame

end
-- ==== Proof.FrameKernel.Data.lean ====
/-
  What the region's body leaves behind, point by point, and the proof data of the pipelined region.
  The grid is 16 × 8; position t = 8·i + n. Along a row i the 256 × 1 accumulator is cleared at n = 0, takes one
  partial sum at every n, and at n = 7 its negation is stored into output block i. So the accumulator after
  position t is a function of the eight input blocks at t and, when n ≠ 0, of the accumulator after t − 1; the output
  block is written only at n = 7. Stated here: per kind of point (first / middle / last of a row) what the body's
  stores leave in the accumulator and in the output block, as the written pieces read back, and that the pieces
  cover the buffer they are written to; the recursion `outsAt0` along the grid; the invariant between points (the
  accumulator owned at what the point before left; before the first point at anything); and the proof data: arrays
  at their contents on entry, every input window at its block, the output window at `outsAt0`'s first component,
  half shares on the windows that read one matrix in pairs.
-/
import proofs.«157485_j45664092291536_1_alg».proof.Proof.FrameKernel.RunC
import proofs.«157485_j45664092291536_1_alg».proof.Proof.FrameKernel.Inv

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- At the first point of a row (n = 0) nothing is stored into the output block: its pieces are none, and this reads them back over
    arbitrary contents. The value is a placeholder no statement depends on: at these points the block is neither written
    back nor read at the next point. -/
def out0_A_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) : Vec F S256x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).1)

/-- At the first point of a row (n = 0) the pieces stored into the accumulator tile it, so every index lies in one. -/
theorem scover0_A_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (y : S256x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1 S256x1.size (by sl_kernel_rfl) y

/-- What the first point of a row (n = 0) leaves in the accumulator: the stored pieces read back. -/
def sout0_A_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) : Vec F S256x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At a middle point of a row (0 < n < 7) nothing is stored into the output block: its pieces are none, and this reads them back over
    arbitrary contents. The value is a placeholder no statement depends on: at these points the block is neither written
    back nor read at the next point. -/
def out0_B_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At a middle point of a row (0 < n < 7) the pieces stored into the accumulator tile it, so every index lies in one. -/
theorem scover0_B_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S256x1.size (by sl_kernel_rfl) y

/-- What a middle point of a row (0 < n < 7) leaves in the accumulator: the stored pieces read back. -/
def sout0_B_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- At the last point of a row (n = 7) the stored pieces tile the output block (one store of 256 × 1), so every index lies in one. -/
theorem cover0_C_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1 S256x1.size (by sl_kernel_rfl) y

/-- What the last point of a row (n = 7) leaves in the output block: the stored pieces read back. -/
def out0_C_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At the last point of a row (n = 7) the pieces stored into the accumulator tile it, so every index lies in one. -/
theorem scover0_C_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S256x1.size (by sl_kernel_rfl) y

/-- What the last point of a row (n = 7) leaves in the accumulator: the stored pieces read back. -/
def sout0_C_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output block and the accumulator hold after each point -/

/-- THE ACCUMULATION along the grid. After the body at position `n`: (the output block's staging contents, the
    accumulator). Position `n` is the first point of its row when `n % 8 = 0` and the last when `n % 8 = 7`; the kind of
    point selects which stores ran, on the eight input blocks at `n` and, off a row's first point, on the accumulator
    as position `n - 1` left it. Both conditions at once is no point of the grid. -/
def outsAt0 (c : Dev nD) : (n : ℕ) → n < cfg0.N → Vec F S256x1 .f32 × Vec F S256x1 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => absurd ((hcond0_1 ⟨0, hn⟩).mp h) (by decide : ¬ 0 % 8 = 7)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => absurd ((hcond0_1 ⟨0, hn⟩).mp h) (by decide : ¬ 0 % 8 = 7)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      if h1 : (n + 1) % 8 = 7 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 8 = 7 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at the first point of a row. -/
theorem outsAt0_A (c : Dev nD) (t : Fin cfg0.N) (h0 : t.val % 8 = 0) (h1 : ¬t.val % 8 = 7) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a middle point of a row: over what the point before left in the accumulator. -/
theorem outsAt0_B (c : Dev nD) (t : Fin cfg0.N) (h0 : ¬t.val % 8 = 0) (h1 : ¬t.val % 8 = 7) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_neg h1).trans rfl)

/-- `outsAt0` at the last point of a row: over what the point before left in the accumulator. -/
theorem outsAt0_C (c : Dev nD) (t : Fin cfg0.N) (h0 : ¬t.val % 8 = 0) (h1 : t.val % 8 = 7) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_pos h1).trans rfl)

/-! ## The invariant between points -/

/-- What the region holds besides the windows before position `n`: before the first point the accumulator at anything
    (the scoped buffers that are no staging buffer); afterwards the accumulator at what position `n - 1` left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

/-- After position `n` (before `n + 1`): the accumulator at that position's contents. -/
theorem PhiS_succ (c : Dev nD) (n : ℕ) (hn : n < cfg0.N) :
    PhiS m c (n + 1) hn = owns (c : Thread nD τ) scM0_0 fullShare ((outsAt0 m c n hn).2) := rfl

/-- Before a position that is not the first: the accumulator at what the position before left. -/
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data of the region -/

/-- On core `c`: the arrays as the region finds them; after the body at `t` every input window's buffer at its block
    and the output window's at `outsAt0`; between points the accumulator (`PhiS`); nothing owed; a half share of each
    cast matrix per window reading it, full shares elsewhere. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q := qShare
  owed _ := 0

/-- The proof data's arrays are the contents on entry. -/
theorem A_eq (c : Dev nD) (w : Fin cfg0.W) : (dats m 0 c).A w = V m c (Pipeline.arrRef spec0 w) := by
  dsimp only [dats]

/-- The proof data's shares. -/
theorem q_eq (c : Dev nD) (w : Fin cfg0.W) : (dats m 0 c).q w = qShare w := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input window's current staging buffer holds its block at every point, fetched there or kept from the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

end Cert.Kernel.Frame

end
-- ==== Proof.FrameKernel.Body.lean ====
/-
  The region's body at a generic grid point. At position t = 8·i + n the pipeline hands the body the invariant (the
  accumulator), what the core owes (nothing), and the current staging buffer of each of the nine windows: the eight
  input windows at their blocks, the output window at whatever it held. By the kind of point — n = 0, 0 < n < 7,
  n = 7 — the run of the body for that kind applies: the inputs come back as they were; the accumulator comes back
  at the stored pieces read back, which is `outsAt0`'s second component at t because the pieces cover it; and at n = 7
  the output block comes back at the stored pieces read back, `outsAt0`'s first component, while elsewhere it comes back
  untouched, which is all that is asked at a point where the window is idle and not written back. Before the very
  first point the accumulator is owned at anything, which is what the first point of a row needs. The invariant before
  the first point and after the last is the scoped rest of the region: the accumulator at some contents.
-/
import proofs.«157485_j45664092291536_1_alg».proof.Proof.FrameKernel.Data

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what is owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns: the invariant at the next point, what is owed, and each window's buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point. The input buffers hold their blocks; the position's residue mod 8 says which kind of point
    it is; the run for that kind applies, the accumulator handed over at what the point before left (at anything before
    the first point) and taken back at this point's contents because the stored pieces cover it; the output buffer is
    taken back covered at a row's last point and untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · by_cases h1 : t.val % 8 = 7
    · exfalso; omega
    · -- n = 0: the first point of a row
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_A m c t h0 h1]
      unfold sout0_A_0; (try dsimp only)
      by_cases hz : t.val = 0
      · -- the very first point of the grid: the accumulator at anything
        rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- the first point of a later row: what the row before left in the accumulator is discarded
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun hz => h0 (by rw [hz])
    by_cases h1 : t.val % 8 = 7
    · -- n = 7: the last point of a row
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [outsAt0_C m c t h0 h1]
      unfold out0_C_8 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · -- 0 < n < 7: a middle point of a row
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest spec0 c ⊢ (dats m 0 c).Φ 0 := by
  rw [show (dats m 0 c).Φ 0 = PhiS m c 0 (Nat.zero_le _) from rfl, PhiS_zero m c 0 _ rfl]

/-- After any point the invariant gives the scoped rest back: what the accumulator holds is forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scopedRest0_owns]
  iintro HS0
  iexists _; iexact HS0

/-- The same after the last point. -/
theorem hout (c : Dev nD) : (dats m 0 c).Φ (Fin.last cfg0.N) ⊢ Pipeline.scopedRest spec0 c :=
  Phi_out m c _ (by rw [Fin.val_last]; have : cfg0.N = 128 := N_0; omega)

end Cert.Kernel.Frame

end
-- ==== Proof.FrameKernel.Launch.lean ====
/-
  The launch of this program's one pipelined region, and @main's run around it. Two pairs of input windows read ONE
  array each (the region is handed each cast matrix twice: once by blocks of 256 rows, once by blocks of 512), so the
  arrays behind the windows are seven, not nine: each shared matrix, held whole when the region is entered, is dealt
  to its two windows a half each, which is enough for windows that only read. The region's result array is held
  outright; after the region one reshape reads it into @main's result, and every buffer the region does not stage —
  the two arguments among them — is never written. For ANY proof data with those shares whose body obligation holds,
  every weakly fair execution of @main terminates with the arguments unchanged and the result the reshape of what
  the region's write-backs leave in its result array.
-/
import proofs.«157485_j45664092291536_1_alg».proof.Proof.FrameKernel.Inv

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's result from the region's result array: the 4096 × 1 column read as a vector of 4096. -/
def tailOut (o : Vec F S4096x1 .f32) : Vec F S4096 .f32 := fun i => shapeCast S4096 o shapeCasts_S4096x1_S4096 i

/-- The unscoped buffers that are no window's array: the two arguments, the host operations' intermediates, @main's result. -/
abbrev restSet : Finset (Ref sig .tc) :=
  (Finset.univ.filter fun b : Ref sig .tc => ¬ b.isScoped) \ Finset.univ.image (Pipeline.arrRef spec0)

section
variable (dats : (p : Fin 1) → (c : Dev nD) → Dat τ (Elt F) Unit ℕ (UR sig nD τ) ℕ (cfgs p) c)

/-- What those buffers hold at the end: as the region found them, but @main's result, which the last reshape writes. -/
def Vt (c : Dev nD) : (b : Ref sig .tc) → Buf (Elt F) ((c.tc : Thread nD τ).loc b) :=
  Function.update (V m c) main_v11 (tailOut (F := F) ((dats 0 c).arrAt 8 cfg0.N))

set_option backward.isDefEq.respectTransparency.types false in
set_option maxHeartbeats 1600000 in
/-- @main's run, for any proof data at the shares `qShare` whose arrays are the region-entry contents. -/
theorem run_shared
    (hbody : ∀ c, BodyObligation (dats 0 c) (defs₀ (F := F)) Variants.none () Set.univ)
    (hq : ∀ c w, (dats 0 c).q w = qShare w)
    (howed : ∀ c t, (dats 0 c).owed t = 0)
    (hA : ∀ c w, (dats 0 c).A w = V m c (Pipeline.arrRef spec0 w))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = tailOut (F := F) ((dats 0 c).arrAt 8 cfg0.N)) := by
  classical
  refine Pipeline.θ_run_region_noSem_pf_tail (fun q => (cfgs q).toPCfg (Val := Elt F)) (fun q => (cfgs q).toPCfg_adm) dats () cellOf_inj 0
    winFacts₀0 (Pipeline.PreFacts.none _) emb₁ defs₀ Variants.none m ρ main (fun _ => Pipeline.chain [StableHlo.seq hostOps1])
    (fun c => (hbody c).loose) block_pos0 arr_whole0 stage_whole0 howed
    (u₀ := initOf (Pipeline.cells cfgs cellOf_inj) (Pipeline.launchToks cfgs cellOf_inj)) (hu₀ := .rfl)
    (V := V m) (hmain := hmain m Variants.none) (hsplit := ?hsplit) (hpf := fun _ k => k.elim0)
    (X := fun _ => iprop(emp)) (Y := fun _ => iprop(emp)) (Z := fun c => Pipeline.unscopedRest spec0 c (V m c))
    (Z' := fun c => Pipeline.unscopedRest spec0 c (Vt m dats c))
    (hX := ?hX) (hin := ?hin) (hout := ?hout) (htail := ?htail)
    (QY := fun c s => ∀ b ∈ restSet, s.mem ((c.tc : Thread nD τ).loc b) = Vt m dats c b)
    (hY := ?hY) (hQ := ?hQ)
  case hsplit =>
    intro c
    have harr : (Pipeline.arrBufs spec0 c (V m c) : sProp 𝕄)
        = iprop((((c.tc : Thread nD τ).loc main_v0) ↦{fullShare} V m c main_v0) ∗ (((c.tc : Thread nD τ).loc main_v1) ↦{fullShare} V m c main_v1) ∗ (((c.tc : Thread nD τ).loc main_v6) ↦{fullShare} V m c main_v6) ∗ (((c.tc : Thread nD τ).loc main_v7) ↦{fullShare} V m c main_v7) ∗ (((c.tc : Thread nD τ).loc main_v8) ↦{fullShare} V m c main_v8) ∗ (((c.tc : Thread nD τ).loc main_v9) ↦{fullShare} V m c main_v9) ∗ (((c.tc : Thread nD τ).loc main_v10) ↦{fullShare} V m c main_v10)) := by
      unfold Pipeline.arrBufs
      exact bigSep_eq_bigSepL_of_eq [main_v0, main_v1, main_v6, main_v7, main_v8, main_v9, main_v10] (by decide) (by decide) _
    -- each window's array is a whole buffer, held at the window's share at the entry contents
    have e (w : Fin 9) : (((cfg0.win w).arr.view.loc (c.tc : Thread nD τ)) ↦[(cfg0.win w).arr.view.set]{(dats 0 c).share w} (dats 0 c).arrAt w 0 : sProp 𝕄)
        = (((c.tc : Thread nD τ).loc (Pipeline.arrRef spec0 w)) ↦{(dats 0 c).share w} V m c (Pipeline.arrRef spec0 w)) := by
      rw [(arr_whole0 w).set_eq_univ, show (dats 0 c).arrAt w 0 = (dats 0 c).A w from rfl, hA]
    have sIn (w : Fin 9) (hw : (cfg0.win w).isOut = false) : (dats 0 c).share w = qShare w := by
      unfold Dat.share; rw [hw, hq]; rfl
    have s8 : (dats 0 c).share 8 = fullShare := by unfold Dat.share; rfl
    show (Pipeline.arrBufs spec0 c (V m c) : sProp 𝕄) ⊢ (dats 0 c).arrays ((dats 0 c).arrAt · 0)
    rw [harr]
    unfold Dat.arrays
    rw [bigSep_W0, e 0, e 1, e 2, e 3, e 4, e 5, e 6, e 7, e 8,
      sIn 0 rfl, sIn 1 rfl, sIn 2 rfl, sIn 3 rfl, sIn 4 rfl, sIn 5 rfl, sIn 6 rfl, sIn 7 rfl, s8]
    iintro ⟨H0, H1, H6, H7, H8, H9, H10⟩
    ihave H0 := (pointsTo_share (PosShare.mem_left_op_right fullShare)).1 $$ H0
    icases H0 with ⟨H0l, H0r⟩
    ihave H1 := (pointsTo_share (PosShare.mem_left_op_right fullShare)).1 $$ H1
    icases H1 with ⟨H1l, H1r⟩
    isplitl [H0l]; · iexact H0l
    isplitl [H0r]; · iexact H0r
    isplitl [H1l]; · iexact H1l
    isplitl [H1r]; · iexact H1r
    isplitl [H6]; · iexact H6
    isplitl [H7]; · iexact H7
    isplitl [H8]; · iexact H8
    isplitl [H9]; · iexact H9
    iexact H10
  case htail =>
    intro c Q'
    have e8 : (((cfg0.win 8).arr.view.loc (c.tc : Thread nD τ)) ↦[(cfg0.win 8).arr.view.set]{(dats 0 c).share 8} (dats 0 c).arrAt 8 cfg0.N : sProp 𝕄)
        = (((c.tc : Thread nD τ).loc main_v10) ↦{fullShare} (dats 0 c).arrAt 8 cfg0.N) := by
      rw [(arr_whole0 8).set_eq_univ, show (dats 0 c).share 8 = fullShare from by unfold Dat.share; rfl]
    have hv (b : Ref sig .tc) (hb : b ≠ main_v11) : Vt m dats c b = V m c b := by
      unfold Vt; exact Function.update_of_ne hb _ _
    have hv11 : Vt m dats c main_v11 = tailOut (F := F) ((dats 0 c).arrAt 8 cfg0.N) := by
      unfold Vt; exact Function.update_self ..
    show iprop((iprop((dats 0 c).arrays ((dats 0 c).arrAt · cfg0.N) ∗ Pipeline.unscopedRest spec0 c (Vt m dats c)) -∗ Q' ⟨⟩)
        ∗ boundary (c.tc : Thread nD τ) ∗ (dats 0 c).arrays ((dats 0 c).arrAt · cfg0.N) ∗ Pipeline.unscopedRest spec0 c (V m c))
      ⊢ wp frame (wpE defs (Variants.lift Variants.none) (c.tc : Thread nD τ) none) Set.univ (Pipeline.chain [StableHlo.seq hostOps1]) Q'
    unfold Dat.arrays
    rw [bigSep_W0, e8, unscopedRest0_eq c (V m c), unscopedRest0_eq c (Vt m dats c),
      hv main_arg0 (by decide), hv main_arg1 (by decide), hv main_v2 (by decide), hv main_cst (by decide), hv main_v3 (by decide), hv main_v4 (by decide), hv main_cst_0 (by decide), hv main_v5 (by decide), hv11]
    iintro ⟨Hk, Hb, ⟨H0, H1, H2, H3, H4, H5, H6, H7, H8⟩, ⟨Ha0, Ha1, Hv2, Hc, Hv3, Hv4, Hc0, Hv5, Hv11⟩⟩
    rw [Pipeline.chain_cons, Pipeline.chain_nil]
    -- the reshape runs holding the two buffers it touches: the region's result array and @main's result
    let W : Valuation τ sig (Elt F) := Function.update (V0 m c) (Proc.devRef .tc main_v10) ((dats 0 c).arrAt 8 cfg0.N)
    let S : Finset (DevRef τ sig) := {Proc.devRef .tc main_v10, Proc.devRef .tc main_v11}
    have hne : (Proc.devRef .tc main_v10 : DevRef τ sig) ≠ Proc.devRef .tc main_v11 := StableHlo.devRef_ne_of_ne (by decide)
    have hS : ∀ op ∈ (hostOps1 : List (HloOp τ sig (Elt F))), op.bufs ⊆ S := by
      intro op hop; simp only [hostOps1, List.mem_singleton] at hop; subst hop; exact Finset.Subset.refl _
    have hf : ∀ op ∈ (hostOps1 : List (HloOp τ sig (Elt F))), op.fresh = ∅ :=
      fun op hop => (List.forall_iff_forall_mem.mp hostOps1_fresh) op hop
    have hW10 : W (Proc.devRef .tc main_v10) = (dats 0 c).arrAt 8 cfg0.N := Function.update_self ..
    have hW11 : W (Proc.devRef .tc main_v11) = V m c main_v11 := Function.update_of_ne hne.symm _ _
    have hA10 : StableHlo.after hostOps1 W (Proc.devRef .tc main_v10) = (dats 0 c).arrAt 8 cfg0.N := by
      simp only [hostOps1, StableHlo.after_cons, StableHlo.after_nil]
      rw [HloOp.result_of_not_mem _ _ (by rw [StableHlo.reshape_writes, Finset.mem_singleton]; exact hne), hW10]
    have hA11 : StableHlo.after hostOps1 W (Proc.devRef .tc main_v11) = tailOut (F := F) ((dats 0 c).arrAt 8 cfg0.N) := by
      simp only [hostOps1, StableHlo.after_cons, StableHlo.after_nil]
      rw [StableHlo.reshape_result, hW10]; rfl
    have hheld (W' : Valuation τ sig (Elt F)) : (StableHlo.held (c.tc : Thread nD τ) S W' : sProp 𝕄)
        = iprop((((c.tc : Thread nD τ).loc main_v10) ↦{fullShare} W' (Proc.devRef .tc main_v10)) ∗ (((c.tc : Thread nD τ).loc main_v11) ↦{fullShare} W' (Proc.devRef .tc main_v11))) := by
      unfold StableHlo.held
      rw [bigSep_insert (by rw [Finset.mem_singleton]; exact hne), bigSep_singleton]; rfl
    iapply (StableHlo.wp_seq (Variants.lift Variants.none) none Set.univ c S (fun _ => pure ⟨⟩) hostOps1 hS hf W) $$ [Hb H8 Hv11]
    · rw [hheld W, hW10, hW11]
      isplitl [Hb]; · iexact Hb
      isplitl [H8]; · iexact H8
      iexact Hv11
    rw [hheld (StableHlo.after hostOps1 W), hA10, hA11]
    iintro ⟨Hb, H8, Hv11⟩
    rw [wp_pure]; imodintro
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Ha0]; · iexact Ha0
    isplitl [Ha1]; · iexact Ha1
    isplitl [Hv2]; · iexact Hv2
    isplitl [Hc]; · iexact Hc
    isplitl [Hv3]; · iexact Hv3
    isplitl [Hv4]; · iexact Hv4
    isplitl [Hc0]; · iexact Hc0
    isplitl [Hv5]; · iexact Hv5
    iexact Hv11
  case hX =>
    intro c
    show (Pipeline.unscopedRestP Pipeline.Prefetch.none spec0 c (V m c) : sProp 𝕄) ⊢ _
    rw [Pipeline.unscopedRestP_none]
    iintro H
    isplitr; · iempintro
    iexact H
  case hin =>
    intro c
    iintro ⟨-, -, HR⟩
    iapply (hin c); iexact HR
  case hout =>
    intro c
    iintro H
    isplitr; · iempintro
    iapply (hout c); iexact H
  case hY =>
    intro c s'
    iintro ⟨-, HU, HSI⟩
    unfold Pipeline.unscopedRest
    imodintro
    iapply (pointsTo_read_all restSet (fun b => (c.tc : Thread nD τ).loc b) (Vt m dats c) s')
    isplitl [HU] <;> iassumption
  case hQ =>
    intro s h c
    obtain ⟨-, -, hy⟩ := h c
    refine ⟨?_, ?_, ?_⟩
    · refine (hy main_arg0 (by decide)).trans ?_
      unfold Vt; rw [Function.update_of_ne (by decide)]; exact V_main_arg0 m c
    · refine (hy main_arg1 (by decide)).trans ?_
      unfold Vt; rw [Function.update_of_ne (by decide)]; exact V_main_arg1 m c
    · refine (hy main_v11 (by decide)).trans ?_
      unfold Vt; rw [Function.update_self]

end

end Cert.Kernel.Frame

end
-- ==== Proof.FrameKernel.Frame.lean ====
/-
  The frame of this program, at any float instance: every weakly fair execution of @main terminates, nothing faults,
  and the two argument matrices end as they began. The run says more — @main's result is the reshape of what the
  region's write-backs leave in its result array —, which the value claim reads on.
-/
import proofs.«157485_j45664092291536_1_alg».proof.Proof.FrameKernel.Body
import proofs.«157485_j45664092291536_1_alg».proof.Proof.FrameKernel.Launch

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's run with this program's proof data: the arguments unchanged, the result read off the region's result array. -/
theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = tailOut (F := F) ((dats m 0 c).arrAt 8 cfg0.N)) :=
  run_shared m ρ (dats m) (body_obligation m) (q_eq m) (fun _ _ => rfl) (A_eq m) (hin m) (hout m)

/-- The frame: @main runs to its end and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_main m ρ)

end Cert.Kernel.Frame

end
-- ==== Proof.FrameKernelIdeal.Base.lean ====
/-
  What every part of this program's frame shares. The program is: twelve host operations (two casts, two rows-of-squares
  sums, four reshapes), one pipelined region over a grid of 16 × 8 points, and one reshape of the region's result.
  At grid point (i, n) the region's body is handed block i of 256 rows and block n of 512 rows of each of the two cast
  matrices (two windows on ONE array each), the matching pieces of the two squared-norm vectors, and keeps a 256 × 1
  accumulator in scratch memory: it clears the accumulator where n = 0, adds one partial sum at every point, and where
  n = 7 stores the negated accumulator into the output block i. Stated here: the buffers' contents when the region
  is entered (`V`), that @main reduces to the region continued by the last reshape (`hmain`), a window's block at a
  point read off its array (`iblk`), the two conditions of the body in closed form over the grid, where the output
  window is idle, and the names of the staging and scratch memrefs.
-/
import proofs.«157485_j45664092291536_1_alg».proof.Proof.Gen.KernelIdeal.Launch
import proofs.«157485_j45664092291536_1_alg».proof.Proof.Gen.KernelIdeal.Skeleton
import proofs.«157485_j45664092291536_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the twelve host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    CONTINUED BY the reshape, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host operations before the region write neither argument: the arguments are as launched. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "This is the first point of its row of the grid" (`n = 0`): the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last point of its row of the grid" (`n = 7`): the negated accumulator is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from the last point of a row the body stores nothing into the output window, and the pipeline does not write it back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At the last point of a row the body stores the whole output block. -/
theorem liveAt0_8 : ∀ t : Fin cfg0.N, cond0_1 (grid0.coords t) → cfg0.idle 8 (grid0.coords t) = false := by decide +kernel

/-! ## The memrefs the body is called with -/

/-- One staging buffer of the output window, through which its contents are stated. -/
abbrev VO0_8 : View sig .tc .vmem S256x1 .f32 := (Memref.whole cc0_stg8_0 : Memref sig .tc .vmem S256x1 .f32).view
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1 .f32 := win0_8.stage (cfg0.slots t 8)
abbrev hs0_8 (t : Fin cfg0.N) : (ms0_8 t).IsWhole := hstage0_8 ((cfg0.slots t 8).cast nbuf0_8)
/-- The accumulator: a whole scoped buffer of the kernel's own, passed beside the windows. -/
abbrev scM0_0 : Memref sig .tc .vmem S256x1 .f32 := Memref.whole cc0_scratch0
/-- The accumulator as a view: what it holds is stated through it. -/
abbrev VS0_0 : View sig .tc .vmem S256x1 .f32 := scM0_0.view

/-- The region's plain invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.FrameKernelIdeal.RunA.lean ====
/-
  The kernel body run at the first point of a grid row (n = 0): the accumulator, at anything, is cleared and then takes the point's partial sum; the output block is not touched.
  The run is a triple over whole staging memrefs: the eight inputs at their contents come back as they were, and what
  the body's stores leave in the accumulator (and, at a row's last point, in the output block) is a list of written
  pieces that the symbolic run finds.
-/
import proofs.«157485_j45664092291536_1_alg».proof.Proof.FrameKernelIdeal.Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point of a grid row (n = 0). -/
noncomputable def kernelRun0_A (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) :
    Σ' (L8 : List (View.Piece (Elt F) S256x1 .f32)), { LS0 : List (View.Piece (Elt F) S256x1 .f32) //
      ∀ (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Frame

end
-- ==== Proof.FrameKernelIdeal.RunB.lean ====
/-
  The kernel body run at a middle point of a grid row (0 < n < 7): the accumulator, at what the point before left, takes the point's partial sum; the output block is not touched.
  The run is a triple over whole staging memrefs: the eight inputs at their contents come back as they were, and what
  the body's stores leave in the accumulator (and, at a row's last point, in the output block) is a list of written
  pieces that the symbolic run finds.
-/
import proofs.«157485_j45664092291536_1_alg».proof.Proof.FrameKernelIdeal.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle point of a grid row (0 < n < 7). -/
noncomputable def kernelRun0_B (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) :
    Σ' (L8 : List (View.Piece (Elt F) S256x1 .f32)), { LS0 : List (View.Piece (Elt F) S256x1 .f32) //
      ∀ (xi8 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Frame

end
-- ==== Proof.FrameKernelIdeal.RunC.lean ====
/-
  The kernel body run at the last point of a grid row (n = 7): the accumulator, at what the point before left, takes the point's partial sum, and its negation is stored into the output block.
  The run is a triple over whole staging memrefs: the eight inputs at their contents come back as they were, and what
  the body's stores leave in the accumulator (and, at a row's last point, in the output block) is a list of written
  pieces that the symbolic run finds.
-/
import proofs.«157485_j45664092291536_1_alg».proof.Proof.FrameKernelIdeal.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point of a grid row (n = 7). -/
noncomputable def kernelRun0_C (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) :
    Σ' (L8 : List (View.Piece (Elt F) S256x1 .f32)), { LS0 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Frame

end
-- ==== Proof.FrameKernelIdeal.Inv.lean ====
/-
  Two small things the proof data and the launch agree on. The shares: each of the two cast matrices is read through
  two input windows (a block of 256 rows and a block of 512 rows), so each of those windows holds HALF of its matrix;
  every other array is held outright. And the region's invariant between grid points: the kernel's one scoped buffer
  that is no staging buffer, the 256 × 1 accumulator, owned whole at some contents.
-/
import proofs.«157485_j45664092291536_1_alg».proof.Proof.FrameKernelIdeal.Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The share of its array each window holds: the two windows on a shared array a half each. -/
def qShare : Fin 9 → PosShare TreeShare := fun w => match w with
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨6, _⟩ => fullShare
  | ⟨7, _⟩ => fullShare
  | ⟨8, _⟩ => fullShare

/-- The scoped buffers the pipeline does not stage are the accumulator alone, as a memref owned at some contents. -/
theorem scopedRest0_owns (c : Dev nD) :
    (Pipeline.scopedRest spec0 c : sProp 𝕄) = iprop(∃ d, owns (c : Thread nD τ) scM0_0 fullShare d) := by
  rw [scopedRest0_eq]; simp only [scM0_0, owns_whole]; try rfl

end Cert.KernelIdeal.Frame

end
-- ==== Proof.FrameKernelIdeal.Data.lean ====
/-
  What the region's body leaves behind, point by point, and the proof data of the pipelined region.
  The grid is 16 × 8; position t = 8·i + n. Along a row i the 256 × 1 accumulator is cleared at n = 0, takes one
  partial sum at every n, and at n = 7 its negation is stored into output block i. So the accumulator after
  position t is a function of the eight input blocks at t and, when n ≠ 0, of the accumulator after t − 1; the output
  block is written only at n = 7. Stated here: per kind of point (first / middle / last of a row) what the body's
  stores leave in the accumulator and in the output block, as the written pieces read back, and that the pieces
  cover the buffer they are written to; the recursion `outsAt0` along the grid; the invariant between points (the
  accumulator owned at what the point before left; before the first point at anything); and the proof data: arrays
  at their contents on entry, every input window at its block, the output window at `outsAt0`'s first component,
  half shares on the windows that read one matrix in pairs.
-/
import proofs.«157485_j45664092291536_1_alg».proof.Proof.FrameKernelIdeal.RunC
import proofs.«157485_j45664092291536_1_alg».proof.Proof.FrameKernelIdeal.Inv

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- At the first point of a row (n = 0) nothing is stored into the output block: its pieces are none, and this reads them back over
    arbitrary contents. The value is a placeholder no statement depends on: at these points the block is neither written
    back nor read at the next point. -/
def out0_A_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) : Vec F S256x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).1)

/-- At the first point of a row (n = 0) the pieces stored into the accumulator tile it, so every index lies in one. -/
theorem scover0_A_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (y : S256x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1 S256x1.size (by sl_kernel_rfl) y

/-- What the first point of a row (n = 0) leaves in the accumulator: the stored pieces read back. -/
def sout0_A_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) : Vec F S256x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At a middle point of a row (0 < n < 7) nothing is stored into the output block: its pieces are none, and this reads them back over
    arbitrary contents. The value is a placeholder no statement depends on: at these points the block is neither written
    back nor read at the next point. -/
def out0_B_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At a middle point of a row (0 < n < 7) the pieces stored into the accumulator tile it, so every index lies in one. -/
theorem scover0_B_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) (y : S256x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S256x1.size (by sl_kernel_rfl) y

/-- What a middle point of a row (0 < n < 7) leaves in the accumulator: the stored pieces read back. -/
def sout0_B_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- At the last point of a row (n = 7) the stored pieces tile the output block (one store of 256 × 1), so every index lies in one. -/
theorem cover0_C_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1 S256x1.size (by sl_kernel_rfl) y

/-- What the last point of a row (n = 7) leaves in the output block: the stored pieces read back. -/
def out0_C_8 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- At the last point of a row (n = 7) the pieces stored into the accumulator tile it, so every index lies in one. -/
theorem scover0_C_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) (y : S256x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S256x1.size (by sl_kernel_rfl) y

/-- What the last point of a row (n = 7) leaves in the accumulator: the stored pieces read back. -/
def sout0_C_0 (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) : Vec F S256x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-! ## What the output block and the accumulator hold after each point -/

/-- THE ACCUMULATION along the grid. After the body at position `n`: (the output block's staging contents, the
    accumulator). Position `n` is the first point of its row when `n % 8 = 0` and the last when `n % 8 = 7`; the kind of
    point selects which stores ran, on the eight input blocks at `n` and, off a row's first point, on the accumulator
    as position `n - 1` left it. Both conditions at once is no point of the grid. -/
def outsAt0 (c : Dev nD) : (n : ℕ) → n < cfg0.N → Vec F S256x1 .f32 × Vec F S256x1 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => absurd ((hcond0_1 ⟨0, hn⟩).mp h) (by decide : ¬ 0 % 8 = 7)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (fun h => absurd ((hcond0_1 ⟨0, hn⟩).mp h) (by decide : ¬ 0 % 8 = 7)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      if h1 : (n + 1) % 8 = 7 then
        False.elim (by omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 8 = 7 then
        (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)
      else
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at the first point of a row. -/
theorem outsAt0_A (c : Dev nD) (t : Fin cfg0.N) (h0 : t.val % 8 = 0) (h1 : ¬t.val % 8 = 7) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a middle point of a row: over what the point before left in the accumulator. -/
theorem outsAt0_B (c : Dev nD) (t : Fin cfg0.N) (h0 : ¬t.val % 8 = 0) (h1 : ¬t.val % 8 = 7) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_neg h1).trans rfl)

/-- `outsAt0` at the last point of a row: over what the point before left in the accumulator. -/
theorem outsAt0_C (c : Dev nD) (t : Fin cfg0.N) (h0 : ¬t.val % 8 = 0) (h1 : t.val % 8 = 7) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_pos h1).trans rfl)

/-! ## The invariant between points -/

/-- What the region holds besides the windows before position `n`: before the first point the accumulator at anything
    (the scoped buffers that are no staging buffer); afterwards the accumulator at what position `n - 1` left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

/-- After position `n` (before `n + 1`): the accumulator at that position's contents. -/
theorem PhiS_succ (c : Dev nD) (n : ℕ) (hn : n < cfg0.N) :
    PhiS m c (n + 1) hn = owns (c : Thread nD τ) scM0_0 fullShare ((outsAt0 m c n hn).2) := rfl

/-- Before a position that is not the first: the accumulator at what the position before left. -/
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data of the region -/

/-- On core `c`: the arrays as the region finds them; after the body at `t` every input window's buffer at its block
    and the output window's at `outsAt0`; between points the accumulator (`PhiS`); nothing owed; a half share of each
    cast matrix per window reading it, full shares elsewhere. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q := qShare
  owed _ := 0

/-- The proof data's arrays are the contents on entry. -/
theorem A_eq (c : Dev nD) (w : Fin cfg0.W) : (dats m 0 c).A w = V m c (Pipeline.arrRef spec0 w) := by
  dsimp only [dats]

/-- The proof data's shares. -/
theorem q_eq (c : Dev nD) (w : Fin cfg0.W) : (dats m 0 c).q w = qShare w := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input window's current staging buffer holds its block at every point, fetched there or kept from the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

end Cert.KernelIdeal.Frame

end
-- ==== Proof.FrameKernelIdeal.Body.lean ====
/-
  The region's body at a generic grid point. At position t = 8·i + n the pipeline hands the body the invariant (the
  accumulator), what the core owes (nothing), and the current staging buffer of each of the nine windows: the eight
  input windows at their blocks, the output window at whatever it held. By the kind of point — n = 0, 0 < n < 7,
  n = 7 — the run of the body for that kind applies: the inputs come back as they were; the accumulator comes back
  at the stored pieces read back, which is `outsAt0`'s second component at t because the pieces cover it; and at n = 7
  the output block comes back at the stored pieces read back, `outsAt0`'s first component, while elsewhere it comes back
  untouched, which is all that is asked at a point where the window is idle and not written back. Before the very
  first point the accumulator is owned at anything, which is what the first point of a row needs. The invariant before
  the first point and after the last is the scoped rest of the region: the accumulator at some contents.
-/
import proofs.«157485_j45664092291536_1_alg».proof.Proof.FrameKernelIdeal.Data

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what is owed, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns: the invariant at the next point, what is owed, and each window's buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point. The input buffers hold their blocks; the position's residue mod 8 says which kind of point
    it is; the run for that kind applies, the accumulator handed over at what the point before left (at anything before
    the first point) and taken back at this point's contents because the stored pieces cover it; the output buffer is
    taken back covered at a row's last point and untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · by_cases h1 : t.val % 8 = 7
    · exfalso; omega
    · -- n = 0: the first point of a row
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_A m c t h0 h1]
      unfold sout0_A_0; (try dsimp only)
      by_cases hz : t.val = 0
      · -- the very first point of the grid: the accumulator at anything
        rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- the first point of a later row: what the row before left in the accumulator is discarded
        rw [PhiS_castSucc m c t, PhiS_pos m c _ _ hz]
        iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun hz => h0 (by rw [hz])
    by_cases h1 : t.val % 8 = 7
    · -- n = 7: the last point of a row
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t ((hcond0_1 t).mpr h1)], after0_8]
      rw [outsAt0_C m c t h0 h1]
      unfold out0_C_8 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _)
    · -- 0 < n < 7: a middle point of a row
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t (fun h => h1 ((hcond0_1 t).mp h))) (noFlush0_8 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.scopedRest spec0 c ⊢ (dats m 0 c).Φ 0 := by
  rw [show (dats m 0 c).Φ 0 = PhiS m c 0 (Nat.zero_le _) from rfl, PhiS_zero m c 0 _ rfl]

/-- After any point the invariant gives the scoped rest back: what the accumulator holds is forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scopedRest0_owns]
  iintro HS0
  iexists _; iexact HS0

/-- The same after the last point. -/
theorem hout (c : Dev nD) : (dats m 0 c).Φ (Fin.last cfg0.N) ⊢ Pipeline.scopedRest spec0 c :=
  Phi_out m c _ (by rw [Fin.val_last]; have : cfg0.N = 128 := N_0; omega)

end Cert.KernelIdeal.Frame

end
-- ==== Proof.FrameKernelIdeal.Launch.lean ====
/-
  The launch of this program's one pipelined region, and @main's run around it. Two pairs of input windows read ONE
  array each (the region is handed each cast matrix twice: once by blocks of 256 rows, once by blocks of 512), so the
  arrays behind the windows are seven, not nine: each shared matrix, held whole when the region is entered, is dealt
  to its two windows a half each, which is enough for windows that only read. The region's result array is held
  outright; after the region one reshape reads it into @main's result, and every buffer the region does not stage —
  the two arguments among them — is never written. For ANY proof data with those shares whose body obligation holds,
  every weakly fair execution of @main terminates with the arguments unchanged and the result the reshape of what
  the region's write-backs leave in its result array.
-/
import proofs.«157485_j45664092291536_1_alg».proof.Proof.FrameKernelIdeal.Inv

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's result from the region's result array: the 4096 × 1 column read as a vector of 4096. -/
def tailOut (o : Vec F S4096x1 .f32) : Vec F S4096 .f32 := fun i => shapeCast S4096 o shapeCasts_S4096x1_S4096 i

/-- The unscoped buffers that are no window's array: the two arguments, the host operations' intermediates, @main's result. -/
abbrev restSet : Finset (Ref sig .tc) :=
  (Finset.univ.filter fun b : Ref sig .tc => ¬ b.isScoped) \ Finset.univ.image (Pipeline.arrRef spec0)

section
variable (dats : (p : Fin 1) → (c : Dev nD) → Dat τ (Elt F) Unit ℕ (UR sig nD τ) ℕ (cfgs p) c)

/-- What those buffers hold at the end: as the region found them, but @main's result, which the last reshape writes. -/
def Vt (c : Dev nD) : (b : Ref sig .tc) → Buf (Elt F) ((c.tc : Thread nD τ).loc b) :=
  Function.update (V m c) main_v11 (tailOut (F := F) ((dats 0 c).arrAt 8 cfg0.N))

set_option backward.isDefEq.respectTransparency.types false in
set_option maxHeartbeats 1600000 in
/-- @main's run, for any proof data at the shares `qShare` whose arrays are the region-entry contents. -/
theorem run_shared
    (hbody : ∀ c, BodyObligation (dats 0 c) (defs₀ (F := F)) Variants.none () Set.univ)
    (hq : ∀ c w, (dats 0 c).q w = qShare w)
    (howed : ∀ c t, (dats 0 c).owed t = 0)
    (hA : ∀ c w, (dats 0 c).A w = V m c (Pipeline.arrRef spec0 w))
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = tailOut (F := F) ((dats 0 c).arrAt 8 cfg0.N)) := by
  classical
  refine Pipeline.θ_run_region_noSem_pf_tail (fun q => (cfgs q).toPCfg (Val := Elt F)) (fun q => (cfgs q).toPCfg_adm) dats () cellOf_inj 0
    winFacts₀0 (Pipeline.PreFacts.none _) emb₁ defs₀ Variants.none m ρ main (fun _ => Pipeline.chain [StableHlo.seq hostOps1])
    (fun c => (hbody c).loose) block_pos0 arr_whole0 stage_whole0 howed
    (u₀ := initOf (Pipeline.cells cfgs cellOf_inj) (Pipeline.launchToks cfgs cellOf_inj)) (hu₀ := .rfl)
    (V := V m) (hmain := hmain m Variants.none) (hsplit := ?hsplit) (hpf := fun _ k => k.elim0)
    (X := fun _ => iprop(emp)) (Y := fun _ => iprop(emp)) (Z := fun c => Pipeline.unscopedRest spec0 c (V m c))
    (Z' := fun c => Pipeline.unscopedRest spec0 c (Vt m dats c))
    (hX := ?hX) (hin := ?hin) (hout := ?hout) (htail := ?htail)
    (QY := fun c s => ∀ b ∈ restSet, s.mem ((c.tc : Thread nD τ).loc b) = Vt m dats c b)
    (hY := ?hY) (hQ := ?hQ)
  case hsplit =>
    intro c
    have harr : (Pipeline.arrBufs spec0 c (V m c) : sProp 𝕄)
        = iprop((((c.tc : Thread nD τ).loc main_v0) ↦{fullShare} V m c main_v0) ∗ (((c.tc : Thread nD τ).loc main_v1) ↦{fullShare} V m c main_v1) ∗ (((c.tc : Thread nD τ).loc main_v6) ↦{fullShare} V m c main_v6) ∗ (((c.tc : Thread nD τ).loc main_v7) ↦{fullShare} V m c main_v7) ∗ (((c.tc : Thread nD τ).loc main_v8) ↦{fullShare} V m c main_v8) ∗ (((c.tc : Thread nD τ).loc main_v9) ↦{fullShare} V m c main_v9) ∗ (((c.tc : Thread nD τ).loc main_v10) ↦{fullShare} V m c main_v10)) := by
      unfold Pipeline.arrBufs
      exact bigSep_eq_bigSepL_of_eq [main_v0, main_v1, main_v6, main_v7, main_v8, main_v9, main_v10] (by decide) (by decide) _
    -- each window's array is a whole buffer, held at the window's share at the entry contents
    have e (w : Fin 9) : (((cfg0.win w).arr.view.loc (c.tc : Thread nD τ)) ↦[(cfg0.win w).arr.view.set]{(dats 0 c).share w} (dats 0 c).arrAt w 0 : sProp 𝕄)
        = (((c.tc : Thread nD τ).loc (Pipeline.arrRef spec0 w)) ↦{(dats 0 c).share w} V m c (Pipeline.arrRef spec0 w)) := by
      rw [(arr_whole0 w).set_eq_univ, show (dats 0 c).arrAt w 0 = (dats 0 c).A w from rfl, hA]
    have sIn (w : Fin 9) (hw : (cfg0.win w).isOut = false) : (dats 0 c).share w = qShare w := by
      unfold Dat.share; rw [hw, hq]; rfl
    have s8 : (dats 0 c).share 8 = fullShare := by unfold Dat.share; rfl
    show (Pipeline.arrBufs spec0 c (V m c) : sProp 𝕄) ⊢ (dats 0 c).arrays ((dats 0 c).arrAt · 0)
    rw [harr]
    unfold Dat.arrays
    rw [bigSep_W0, e 0, e 1, e 2, e 3, e 4, e 5, e 6, e 7, e 8,
      sIn 0 rfl, sIn 1 rfl, sIn 2 rfl, sIn 3 rfl, sIn 4 rfl, sIn 5 rfl, sIn 6 rfl, sIn 7 rfl, s8]
    iintro ⟨H0, H1, H6, H7, H8, H9, H10⟩
    ihave H0 := (pointsTo_share (PosShare.mem_left_op_right fullShare)).1 $$ H0
    icases H0 with ⟨H0l, H0r⟩
    ihave H1 := (pointsTo_share (PosShare.mem_left_op_right fullShare)).1 $$ H1
    icases H1 with ⟨H1l, H1r⟩
    isplitl [H0l]; · iexact H0l
    isplitl [H0r]; · iexact H0r
    isplitl [H1l]; · iexact H1l
    isplitl [H1r]; · iexact H1r
    isplitl [H6]; · iexact H6
    isplitl [H7]; · iexact H7
    isplitl [H8]; · iexact H8
    isplitl [H9]; · iexact H9
    iexact H10
  case htail =>
    intro c Q'
    have e8 : (((cfg0.win 8).arr.view.loc (c.tc : Thread nD τ)) ↦[(cfg0.win 8).arr.view.set]{(dats 0 c).share 8} (dats 0 c).arrAt 8 cfg0.N : sProp 𝕄)
        = (((c.tc : Thread nD τ).loc main_v10) ↦{fullShare} (dats 0 c).arrAt 8 cfg0.N) := by
      rw [(arr_whole0 8).set_eq_univ, show (dats 0 c).share 8 = fullShare from by unfold Dat.share; rfl]
    have hv (b : Ref sig .tc) (hb : b ≠ main_v11) : Vt m dats c b = V m c b := by
      unfold Vt; exact Function.update_of_ne hb _ _
    have hv11 : Vt m dats c main_v11 = tailOut (F := F) ((dats 0 c).arrAt 8 cfg0.N) := by
      unfold Vt; exact Function.update_self ..
    show iprop((iprop((dats 0 c).arrays ((dats 0 c).arrAt · cfg0.N) ∗ Pipeline.unscopedRest spec0 c (Vt m dats c)) -∗ Q' ⟨⟩)
        ∗ boundary (c.tc : Thread nD τ) ∗ (dats 0 c).arrays ((dats 0 c).arrAt · cfg0.N) ∗ Pipeline.unscopedRest spec0 c (V m c))
      ⊢ wp frame (wpE defs (Variants.lift Variants.none) (c.tc : Thread nD τ) none) Set.univ (Pipeline.chain [StableHlo.seq hostOps1]) Q'
    unfold Dat.arrays
    rw [bigSep_W0, e8, unscopedRest0_eq c (V m c), unscopedRest0_eq c (Vt m dats c),
      hv main_arg0 (by decide), hv main_arg1 (by decide), hv main_v2 (by decide), hv main_cst (by decide), hv main_v3 (by decide), hv main_v4 (by decide), hv main_cst_0 (by decide), hv main_v5 (by decide), hv11]
    iintro ⟨Hk, Hb, ⟨H0, H1, H2, H3, H4, H5, H6, H7, H8⟩, ⟨Ha0, Ha1, Hv2, Hc, Hv3, Hv4, Hc0, Hv5, Hv11⟩⟩
    rw [Pipeline.chain_cons, Pipeline.chain_nil]
    -- the reshape runs holding the two buffers it touches: the region's result array and @main's result
    let W : Valuation τ sig (Elt F) := Function.update (V0 m c) (Proc.devRef .tc main_v10) ((dats 0 c).arrAt 8 cfg0.N)
    let S : Finset (DevRef τ sig) := {Proc.devRef .tc main_v10, Proc.devRef .tc main_v11}
    have hne : (Proc.devRef .tc main_v10 : DevRef τ sig) ≠ Proc.devRef .tc main_v11 := StableHlo.devRef_ne_of_ne (by decide)
    have hS : ∀ op ∈ (hostOps1 : List (HloOp τ sig (Elt F))), op.bufs ⊆ S := by
      intro op hop; simp only [hostOps1, List.mem_singleton] at hop; subst hop; exact Finset.Subset.refl _
    have hf : ∀ op ∈ (hostOps1 : List (HloOp τ sig (Elt F))), op.fresh = ∅ :=
      fun op hop => (List.forall_iff_forall_mem.mp hostOps1_fresh) op hop
    have hW10 : W (Proc.devRef .tc main_v10) = (dats 0 c).arrAt 8 cfg0.N := Function.update_self ..
    have hW11 : W (Proc.devRef .tc main_v11) = V m c main_v11 := Function.update_of_ne hne.symm _ _
    have hA10 : StableHlo.after hostOps1 W (Proc.devRef .tc main_v10) = (dats 0 c).arrAt 8 cfg0.N := by
      simp only [hostOps1, StableHlo.after_cons, StableHlo.after_nil]
      rw [HloOp.result_of_not_mem _ _ (by rw [StableHlo.reshape_writes, Finset.mem_singleton]; exact hne), hW10]
    have hA11 : StableHlo.after hostOps1 W (Proc.devRef .tc main_v11) = tailOut (F := F) ((dats 0 c).arrAt 8 cfg0.N) := by
      simp only [hostOps1, StableHlo.after_cons, StableHlo.after_nil]
      rw [StableHlo.reshape_result, hW10]; rfl
    have hheld (W' : Valuation τ sig (Elt F)) : (StableHlo.held (c.tc : Thread nD τ) S W' : sProp 𝕄)
        = iprop((((c.tc : Thread nD τ).loc main_v10) ↦{fullShare} W' (Proc.devRef .tc main_v10)) ∗ (((c.tc : Thread nD τ).loc main_v11) ↦{fullShare} W' (Proc.devRef .tc main_v11))) := by
      unfold StableHlo.held
      rw [bigSep_insert (by rw [Finset.mem_singleton]; exact hne), bigSep_singleton]; rfl
    iapply (StableHlo.wp_seq (Variants.lift Variants.none) none Set.univ c S (fun _ => pure ⟨⟩) hostOps1 hS hf W) $$ [Hb H8 Hv11]
    · rw [hheld W, hW10, hW11]
      isplitl [Hb]; · iexact Hb
      isplitl [H8]; · iexact H8
      iexact Hv11
    rw [hheld (StableHlo.after hostOps1 W), hA10, hA11]
    iintro ⟨Hb, H8, Hv11⟩
    rw [wp_pure]; imodintro
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Ha0]; · iexact Ha0
    isplitl [Ha1]; · iexact Ha1
    isplitl [Hv2]; · iexact Hv2
    isplitl [Hc]; · iexact Hc
    isplitl [Hv3]; · iexact Hv3
    isplitl [Hv4]; · iexact Hv4
    isplitl [Hc0]; · iexact Hc0
    isplitl [Hv5]; · iexact Hv5
    iexact Hv11
  case hX =>
    intro c
    show (Pipeline.unscopedRestP Pipeline.Prefetch.none spec0 c (V m c) : sProp 𝕄) ⊢ _
    rw [Pipeline.unscopedRestP_none]
    iintro H
    isplitr; · iempintro
    iexact H
  case hin =>
    intro c
    iintro ⟨-, -, HR⟩
    iapply (hin c); iexact HR
  case hout =>
    intro c
    iintro H
    isplitr; · iempintro
    iapply (hout c); iexact H
  case hY =>
    intro c s'
    iintro ⟨-, HU, HSI⟩
    unfold Pipeline.unscopedRest
    imodintro
    iapply (pointsTo_read_all restSet (fun b => (c.tc : Thread nD τ).loc b) (Vt m dats c) s')
    isplitl [HU] <;> iassumption
  case hQ =>
    intro s h c
    obtain ⟨-, -, hy⟩ := h c
    refine ⟨?_, ?_, ?_⟩
    · refine (hy main_arg0 (by decide)).trans ?_
      unfold Vt; rw [Function.update_of_ne (by decide)]; exact V_main_arg0 m c
    · refine (hy main_arg1 (by decide)).trans ?_
      unfold Vt; rw [Function.update_of_ne (by decide)]; exact V_main_arg1 m c
    · refine (hy main_v11 (by decide)).trans ?_
      unfold Vt; rw [Function.update_self]

end

end Cert.KernelIdeal.Frame

end
-- ==== Proof.FrameKernelIdeal.Frame.lean ====
/-
  The frame of this program, at any float instance: every weakly fair execution of @main terminates, nothing faults,
  and the two argument matrices end as they began. The run says more — @main's result is the reshape of what the
  region's write-backs leave in its result array —, which the value claim reads on.
-/
import proofs.«157485_j45664092291536_1_alg».proof.Proof.FrameKernelIdeal.Body
import proofs.«157485_j45664092291536_1_alg».proof.Proof.FrameKernelIdeal.Launch

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's run with this program's proof data: the arguments unchanged, the result read off the region's result array. -/
theorem run_main : θ_run defs (onTc (τ := τ) (main (F := F))) (s₀ m ρ) (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v11) = tailOut (F := F) ((dats m 0 c).arrAt 8 cfg0.N)) :=
  run_shared m ρ (dats m) (body_obligation m) (q_eq m) (fun _ _ => rfl) (A_eq m) (hin m) (hout m)

/-- The frame: @main runs to its end and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_main m ρ)

end Cert.KernelIdeal.Frame

end
-- ==== Proof.Spec.lean ====
/-
  The mathematics of the claim, with no program in sight. For a matrix `z` of 4096 rows and 4096 columns over the
  extended reals, write `sq z r = ∑ k, z r k * z r k` (a row's squared norm), `gram z r n = ∑ k, z r k * z n k` (two rows'
  inner product) and `mse z r n = ((sq z r + sq z n) - 2 * gram z r n) * 2⁻¹²` (the mean squared difference of rows `r`
  and `n`, by the Gram-matrix identity; 4096 = 2¹² columns). The result at row `r` is `-(∑ n, mse x r n * mse y r n)`.
  Both programs compute this function: one divides by 4096 where the other multiplies by 2⁻¹², which agree on every
  extended real; one sums the 4096 columns at once where the other adds eight partial sums of 512, which agree because
  addition of extended reals is commutative and associative; one negates where the other subtracts from zero.
-/
import Idealize.ShloMosaic.PureOps.Ideal
import Idealize.ShloMosaic.Lib.ValueIdx

noncomputable section

open scoped BigOperators

namespace Cert.Spec

open Idealize.ShloMosaic Idealize.ShloMosaic.ValueIdx

/-- A 4096 × 4096 matrix of extended reals, indexed as the programs index it. -/
abbrev Mat : Type := (⟨2, ![4096, 4096]⟩ : Shape).Idx → EReal

/-- The literal `2.0`, which both programs spell with the same word. -/
abbrev two : EReal := Ideal.ofBits .f32 0x40000000#32
/-- The literal `2⁻¹²` = 1/4096. -/
abbrev invD : EReal := Ideal.ofBits .f32 0x39800000#32

/-- A row's squared norm. -/
def sq (z : Mat) (r : Fin 4096) : EReal := ∑ k : Fin 4096, z (ix2 r k) * z (ix2 r k)
/-- The inner product of rows `r` and `n`. -/
def gram (z : Mat) (r n : Fin 4096) : EReal := ∑ k : Fin 4096, z (ix2 r k) * z (ix2 n k)
/-- The mean squared difference of rows `r` and `n`, by the Gram-matrix identity. -/
def mse (z : Mat) (r n : Fin 4096) : EReal := ((sq z r + sq z n) - two * gram z r n) * invD
/-- One summand of the result at row `r`. -/
def term (x y : Mat) (r n : Fin 4096) : EReal := mse x r n * mse y r n
/-- The result: minus the sum over all rows `n` of the product of the two mean squared differences. -/
def out (x y : Mat) : (⟨1, ![4096]⟩ : Shape).Idx → EReal := fun i => -(∑ n : Fin 4096, term x y (i 0) n)

/-! ### The three literals, read as extended reals

The zero word is `0`; the word of `4096.0` is the real `4096 = 2¹²` and the word of `invD` is the real `1/4096 = 2⁻¹²`, so that
dividing by the one is multiplying by the other, at the infinities too. -/

/-- The word of `+0.0` denotes `0`. -/
theorem ofBits_zero : Ideal.ofBits .f32 0x00000000#32 = (0 : EReal) := by
  simp [Ideal.ofBits, Ideal.ieee]

/-- The word of `4096.0` (exponent field `139 = 127 + 12`, significand `0`) denotes the real `4096`. -/
theorem ofBits_D : Ideal.ofBits .f32 0x45800000#32 = ((4096 : ℝ) : EReal) := by
  simp [Ideal.ofBits, Ideal.ieee, -EReal.coe_mul]; norm_num

/-- The word of `invD` (exponent field `115 = 127 - 12`, significand `0`) denotes the real `1/4096`. -/
theorem invD_eq : invD = ((1 / 4096 : ℝ) : EReal) := by
  simp [Ideal.ofBits, Ideal.ieee, -EReal.coe_mul]; norm_num

/-- Dividing by `4096` is multiplying by `2⁻¹²`, for every extended real (no finiteness asked). -/
theorem div_D (a : EReal) : Ideal.div a (Ideal.ofBits .f32 0x45800000#32) = a * invD := by
  rw [ofBits_D, invD_eq, Ideal.div_coe (by norm_num)]

/-! ### Two laws of addition on the extended reals -/

/-- Subtracting from zero is negating: `0 - a = 0 + (-a) = -a`. -/
theorem zero_sub_eq_neg (a : EReal) : 0 - a = -a := by
  rw [sub_eq_add_neg, zero_add]

/-- A sum over 4096 indices is the sum of eight consecutive blocks of 512: the index `n` is `j * 512 + l` for exactly one
    pair `(j, l)`, and addition of extended reals is commutative and associative, so regrouping the terms changes nothing. -/
theorem sum_blocks (f : Fin 4096 → EReal) :
    ∑ n : Fin 4096, f n
      = ∑ j : Fin 8, ∑ l : Fin 512, f ⟨j.val * 512 + l.val, by have := j.isLt; have := l.isLt; omega⟩ := by
  rw [← Fintype.sum_prod_type']
  refine (Fintype.sum_equiv (finProdFinEquiv.trans (finCongr (by norm_num : 8 * 512 = 4096))) _ _ (fun x => ?_)).symm
  refine congrArg f (Fin.ext ?_)
  simp only [Equiv.trans_apply, finCongr_apply, Fin.coe_cast, finProdFinEquiv_apply_val]
  omega

end Cert.Spec

end
-- ==== Proof.ValueKernelIdeal.Blocks.lean ====
/-
  What the region's body is handed, at the ideal instance, in terms of the two argument matrices x and y. When the
  region is entered the cast matrices ARE x and y (a change of float format is the identity on extended reals), and the
  four squared-norm arrays hold `sq x r`, `sq y r` at row r (as a 4096 × 1 column and as a 1 × 4096 row). Grid point
  t = 8·i + n hands the body rows 256·i … 256·i + 255 (`rowOf`) and rows 512·n … 512·n + 511 (`colOf`) of each.
-/
import proofs.«157485_j45664092291536_1_alg».proof.Proof.FrameKernelIdeal.Base
import proofs.«157485_j45664092291536_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The first argument matrix on core `c`. -/
abbrev xin (c : Dev nD) : Cert.Spec.Mat := m ((c.tc : Thread nD τ).loc main_arg0)
/-- The second argument matrix on core `c`. -/
abbrev yin (c : Dev nD) : Cert.Spec.Mat := m ((c.tc : Thread nD τ).loc main_arg1)

/-- The row of the matrices that row `p` of the 256-row block at grid point `t` is. -/
def rowOf (t : Fin cfg0.N) (p : Fin 256) : Fin 4096 :=
  ⟨256 * (t.val / 8) + p.val, by have h := t.isLt; have hN : cfg0.N = 128 := N_0; have := p.isLt; omega⟩
/-- The row of the matrices that row `q` of the 512-row block at grid point `t` is. -/
def colOf (t : Fin cfg0.N) (q : Fin 512) : Fin 4096 :=
  ⟨512 * (t.val % 8) + q.val, by have := q.isLt; omega⟩

/-- Each input window's block at a point, at its literal vector type. -/
abbrev blk0 (c : Dev nD) (t : Fin cfg0.N) : Vec Ideal S256x4096 .bf16 := iblk m c 0 t
abbrev blk1 (c : Dev nD) (t : Fin cfg0.N) : Vec Ideal S512x4096 .bf16 := iblk m c 1 t
abbrev blk2 (c : Dev nD) (t : Fin cfg0.N) : Vec Ideal S256x4096 .bf16 := iblk m c 2 t
abbrev blk3 (c : Dev nD) (t : Fin cfg0.N) : Vec Ideal S512x4096 .bf16 := iblk m c 3 t
abbrev blk4 (c : Dev nD) (t : Fin cfg0.N) : Vec Ideal S256x1 .f32 := iblk m c 4 t
abbrev blk5 (c : Dev nD) (t : Fin cfg0.N) : Vec Ideal S1x512 .f32 := iblk m c 5 t
abbrev blk6 (c : Dev nD) (t : Fin cfg0.N) : Vec Ideal S256x1 .f32 := iblk m c 6 t
abbrev blk7 (c : Dev nD) (t : Fin cfg0.N) : Vec Ideal S1x512 .f32 := iblk m c 7 t

/-! ## The windows' block indices over the grid

Grid point t = 8·i + n. The 256-row windows take block i = t / 8 of their arrays' first axis; the 512-row windows
take block n = t % 8 of theirs; the row-shaped squared-norm windows take block n of their second axis. -/

theorem idx0_0 : ∀ t : Fin cfg0.N, win0_0.index t (0 : Fin 2) = t.val / 8 := (by decide +kernel : ∀ t : Fin grid0.N, _)
theorem idx0_1 : ∀ t : Fin cfg0.N, win0_0.index t (1 : Fin 2) = 0 := (by decide +kernel : ∀ t : Fin grid0.N, _)
theorem idx1_0 : ∀ t : Fin cfg0.N, win0_1.index t (0 : Fin 2) = t.val % 8 := (by decide +kernel : ∀ t : Fin grid0.N, _)
theorem idx1_1 : ∀ t : Fin cfg0.N, win0_1.index t (1 : Fin 2) = 0 := (by decide +kernel : ∀ t : Fin grid0.N, _)
theorem idx2_0 : ∀ t : Fin cfg0.N, win0_2.index t (0 : Fin 2) = t.val / 8 := (by decide +kernel : ∀ t : Fin grid0.N, _)
theorem idx2_1 : ∀ t : Fin cfg0.N, win0_2.index t (1 : Fin 2) = 0 := (by decide +kernel : ∀ t : Fin grid0.N, _)
theorem idx3_0 : ∀ t : Fin cfg0.N, win0_3.index t (0 : Fin 2) = t.val % 8 := (by decide +kernel : ∀ t : Fin grid0.N, _)
theorem idx3_1 : ∀ t : Fin cfg0.N, win0_3.index t (1 : Fin 2) = 0 := (by decide +kernel : ∀ t : Fin grid0.N, _)
theorem idx4_0 : ∀ t : Fin cfg0.N, win0_4.index t (0 : Fin 2) = t.val / 8 := (by decide +kernel : ∀ t : Fin grid0.N, _)
theorem idx4_1 : ∀ t : Fin cfg0.N, win0_4.index t (1 : Fin 2) = 0 := (by decide +kernel : ∀ t : Fin grid0.N, _)
theorem idx5_0 : ∀ t : Fin cfg0.N, win0_5.index t (0 : Fin 2) = 0 := (by decide +kernel : ∀ t : Fin grid0.N, _)
theorem idx5_1 : ∀ t : Fin cfg0.N, win0_5.index t (1 : Fin 2) = t.val % 8 := (by decide +kernel : ∀ t : Fin grid0.N, _)
theorem idx6_0 : ∀ t : Fin cfg0.N, win0_6.index t (0 : Fin 2) = t.val / 8 := (by decide +kernel : ∀ t : Fin grid0.N, _)
theorem idx6_1 : ∀ t : Fin cfg0.N, win0_6.index t (1 : Fin 2) = 0 := (by decide +kernel : ∀ t : Fin grid0.N, _)
theorem idx7_0 : ∀ t : Fin cfg0.N, win0_7.index t (0 : Fin 2) = 0 := (by decide +kernel : ∀ t : Fin grid0.N, _)
theorem idx7_1 : ∀ t : Fin cfg0.N, win0_7.index t (1 : Fin 2) = t.val % 8 := (by decide +kernel : ∀ t : Fin grid0.N, _)

/-! ## What the windows' arrays hold when the region is entered -/

/-- The cast of the first argument is the first argument: a change of float format is the identity on extended reals. -/
theorem V_main_v0 (c : Dev nD) : (V m c main_v0 : S4096x4096.Idx → EReal) = xin m c := by
  dsimp only [V, V0]; simp only [hostOps0, List.flatten_cons, List.flatten_nil, List.append_nil]; after_results
  rfl
/-- The cast of the second argument is the second argument. -/
theorem V_main_v1 (c : Dev nD) : (V m c main_v1 : S4096x4096.Idx → EReal) = yin m c := by
  dsimp only [V, V0]; simp only [hostOps0, List.flatten_cons, List.flatten_nil, List.append_nil]; after_results
  rfl

/-- The vector of the rows' squared norms as the host operations compute it: the elementwise square summed along each
    row, starting from the zero word. -/
abbrev sqVec (x : FVec Ideal S4096x4096 .f32) : FVec Ideal S4096 .f32 :=
  Host.reduceAdd (mulf x x) (constant S_ .f32 0x00000000#32) reducesTo_S4096x4096_S4096_d1 h_S_

/-- At row r it is the row's squared norm: the zero word is 0, and 0 + s = s. -/
theorem sqVec_apply (x : FVec Ideal S4096x4096 .f32) (r : Fin 4096) : sqVec x (ix1 r) = Cert.Spec.sq x r := by
  simp only [Host.reduceAdd, Ideal.hostReduceAdd_def]
  rw [Ideal.hostReduceAdd_single reducesTo_S4096x4096_S4096_d1 (by decide)]
  have h0 : (constant S_ .f32 0x00000000#32 : FVec Ideal S_ .f32) (Shape.Idx.first h_S_) = (0 : EReal) := Cert.Spec.ofBits_zero
  rw [h0, zero_add]
  unfold Cert.Spec.sq
  refine Finset.sum_congr rfl fun k _ => ?_
  rw [mulf_apply]
  refine congrArg (fun j => x j * x j) (funext fun a => Fin.ext ?_)
  match a with
  | ⟨0, _⟩ => rfl
  | ⟨1, _⟩ => rfl

/-- Position r of the length-4096 vector is position (r, 0) of its 4096 × 1 reshape. -/
theorem col_apply (v : FVec Ideal S4096 .f32) (r : Fin 4096) :
    shapeCast S4096x1 v shapeCasts_S4096_S4096x1 (ix2 r (0 : Fin 1)) = v (ix1 r) := by
  refine shapeCast_apply _ _ (ix2 r (0 : Fin 1)) (ix1 r) ?_
  have h1 := Shape.rowMajor_val_one (d := ![4096]) (ix1 r)
  have h2 := Shape.rowMajor_val_two (d := ![4096, 1]) (ix2 r (0 : Fin 1))
  refine h1.trans (Eq.trans ?_ h2.symm)
  show r.val = r.val * 1 + 0
  omega

/-- Position r of the length-4096 vector is position (0, r) of its 1 × 4096 reshape. -/
theorem row_apply (v : FVec Ideal S4096 .f32) (r : Fin 4096) :
    shapeCast S1x4096 v shapeCasts_S4096_S1x4096 (ix2 (0 : Fin 1) r) = v (ix1 r) := by
  refine shapeCast_apply _ _ (ix2 (0 : Fin 1) r) (ix1 r) ?_
  have h1 := Shape.rowMajor_val_one (d := ![4096]) (ix1 r)
  have h2 := Shape.rowMajor_val_two (d := ![1, 4096]) (ix2 (0 : Fin 1) r)
  refine h1.trans (Eq.trans ?_ h2.symm)
  show r.val = 0 * 4096 + r.val
  omega

/-- The 4096 × 1 array of the first argument's squared norms. -/
theorem V_main_v6 (c : Dev nD) (r : Fin 4096) : V m c main_v6 (ix2 r (0 : Fin 1)) = Cert.Spec.sq (xin m c) r := by
  have e : (V m c main_v6 : S4096x1.Idx → EReal) = shapeCast S4096x1 (sqVec (xin m c)) shapeCasts_S4096_S4096x1 := by
    dsimp only [V, V0]; simp only [hostOps0, List.flatten_cons, List.flatten_nil, List.append_nil]; after_results
    rfl
  rw [e]
  exact (col_apply _ r).trans (sqVec_apply _ r)
/-- The 1 × 4096 array of the first argument's squared norms. -/
theorem V_main_v7 (c : Dev nD) (r : Fin 4096) : V m c main_v7 (ix2 (0 : Fin 1) r) = Cert.Spec.sq (xin m c) r := by
  have e : (V m c main_v7 : S1x4096.Idx → EReal) = shapeCast S1x4096 (sqVec (xin m c)) shapeCasts_S4096_S1x4096 := by
    dsimp only [V, V0]; simp only [hostOps0, List.flatten_cons, List.flatten_nil, List.append_nil]; after_results
    rfl
  rw [e]
  exact (row_apply _ r).trans (sqVec_apply _ r)
/-- The 4096 × 1 array of the second argument's squared norms. -/
theorem V_main_v8 (c : Dev nD) (r : Fin 4096) : V m c main_v8 (ix2 r (0 : Fin 1)) = Cert.Spec.sq (yin m c) r := by
  have e : (V m c main_v8 : S4096x1.Idx → EReal) = shapeCast S4096x1 (sqVec (yin m c)) shapeCasts_S4096_S4096x1 := by
    dsimp only [V, V0]; simp only [hostOps0, List.flatten_cons, List.flatten_nil, List.append_nil]; after_results
    rfl
  rw [e]
  exact (col_apply _ r).trans (sqVec_apply _ r)
/-- The 1 × 4096 array of the second argument's squared norms. -/
theorem V_main_v9 (c : Dev nD) (r : Fin 4096) : V m c main_v9 (ix2 (0 : Fin 1) r) = Cert.Spec.sq (yin m c) r := by
  have e : (V m c main_v9 : S1x4096.Idx → EReal) = shapeCast S1x4096 (sqVec (yin m c)) shapeCasts_S4096_S1x4096 := by
    dsimp only [V, V0]; simp only [hostOps0, List.flatten_cons, List.flatten_nil, List.append_nil]; after_results
    rfl
  rw [e]
  exact (row_apply _ r).trans (sqVec_apply _ r)

/-! ## The blocks

A block read is the array read at the block's place: along each axis the place is the block index times the block
size plus the coordinate inside the block. -/

theorem blk0_apply (c : Dev nD) (t : Fin cfg0.N) (p : Fin 256) (k : Fin 4096) : blk0 m c t (ix2 p k) = xin m c (ix2 (rowOf t p) k) := by
  show V m c main_v0 (((cfg0.win 0).blk t).view.emb (ix2 p k)) = _
  rw [V_main_v0]
  refine congrArg (xin m c) ?_
  have e0 := idx0_0 t
  have e1 := idx0_1 t
  funext a; apply Fin.ext
  match a with
  | ⟨0, _⟩ => show win0_0.index t (0 : Fin 2) * 256 + 1 * p.val = 256 * (t.val / 8) + p.val; omega
  | ⟨1, _⟩ => show win0_0.index t (1 : Fin 2) * 4096 + 1 * k.val = k.val; omega
theorem blk1_apply (c : Dev nD) (t : Fin cfg0.N) (q : Fin 512) (k : Fin 4096) : blk1 m c t (ix2 q k) = xin m c (ix2 (colOf t q) k) := by
  show V m c main_v0 (((cfg0.win 1).blk t).view.emb (ix2 q k)) = _
  rw [V_main_v0]
  refine congrArg (xin m c) ?_
  have e0 := idx1_0 t
  have e1 := idx1_1 t
  funext a; apply Fin.ext
  match a with
  | ⟨0, _⟩ => show win0_1.index t (0 : Fin 2) * 512 + 1 * q.val = 512 * (t.val % 8) + q.val; omega
  | ⟨1, _⟩ => show win0_1.index t (1 : Fin 2) * 4096 + 1 * k.val = k.val; omega
theorem blk2_apply (c : Dev nD) (t : Fin cfg0.N) (p : Fin 256) (k : Fin 4096) : blk2 m c t (ix2 p k) = yin m c (ix2 (rowOf t p) k) := by
  show V m c main_v1 (((cfg0.win 2).blk t).view.emb (ix2 p k)) = _
  rw [V_main_v1]
  refine congrArg (yin m c) ?_
  have e0 := idx2_0 t
  have e1 := idx2_1 t
  funext a; apply Fin.ext
  match a with
  | ⟨0, _⟩ => show win0_2.index t (0 : Fin 2) * 256 + 1 * p.val = 256 * (t.val / 8) + p.val; omega
  | ⟨1, _⟩ => show win0_2.index t (1 : Fin 2) * 4096 + 1 * k.val = k.val; omega
theorem blk3_apply (c : Dev nD) (t : Fin cfg0.N) (q : Fin 512) (k : Fin 4096) : blk3 m c t (ix2 q k) = yin m c (ix2 (colOf t q) k) := by
  show V m c main_v1 (((cfg0.win 3).blk t).view.emb (ix2 q k)) = _
  rw [V_main_v1]
  refine congrArg (yin m c) ?_
  have e0 := idx3_0 t
  have e1 := idx3_1 t
  funext a; apply Fin.ext
  match a with
  | ⟨0, _⟩ => show win0_3.index t (0 : Fin 2) * 512 + 1 * q.val = 512 * (t.val % 8) + q.val; omega
  | ⟨1, _⟩ => show win0_3.index t (1 : Fin 2) * 4096 + 1 * k.val = k.val; omega
theorem blk4_apply (c : Dev nD) (t : Fin cfg0.N) (p : Fin 256) : blk4 m c t (ix2 p (0 : Fin 1)) = Cert.Spec.sq (xin m c) (rowOf t p) := by
  show V m c main_v6 (((cfg0.win 4).blk t).view.emb (ix2 p (0 : Fin 1))) = _
  have e0 := idx4_0 t
  have e1 := idx4_1 t
  have e : ((cfg0.win 4).blk t).view.emb (ix2 p (0 : Fin 1)) = ix2 (rowOf t p) (0 : Fin 1) := by
    funext a; apply Fin.ext
    match a with
    | ⟨0, _⟩ => show win0_4.index t (0 : Fin 2) * 256 + 1 * p.val = 256 * (t.val / 8) + p.val; omega
    | ⟨1, _⟩ => show win0_4.index t (1 : Fin 2) * 1 + 1 * 0 = 0; omega
  rw [e]
  exact V_main_v6 m c (rowOf t p)
theorem blk5_apply (c : Dev nD) (t : Fin cfg0.N) (q : Fin 512) : blk5 m c t (ix2 (0 : Fin 1) q) = Cert.Spec.sq (xin m c) (colOf t q) := by
  show V m c main_v7 (((cfg0.win 5).blk t).view.emb (ix2 (0 : Fin 1) q)) = _
  have e0 := idx5_0 t
  have e1 := idx5_1 t
  have e : ((cfg0.win 5).blk t).view.emb (ix2 (0 : Fin 1) q) = ix2 (0 : Fin 1) (colOf t q) := by
    funext a; apply Fin.ext
    match a with
    | ⟨0, _⟩ => show win0_5.index t (0 : Fin 2) * 1 + 1 * 0 = 0; omega
    | ⟨1, _⟩ => show win0_5.index t (1 : Fin 2) * 512 + 1 * q.val = 512 * (t.val % 8) + q.val; omega
  rw [e]
  exact V_main_v7 m c (colOf t q)
theorem blk6_apply (c : Dev nD) (t : Fin cfg0.N) (p : Fin 256) : blk6 m c t (ix2 p (0 : Fin 1)) = Cert.Spec.sq (yin m c) (rowOf t p) := by
  show V m c main_v8 (((cfg0.win 6).blk t).view.emb (ix2 p (0 : Fin 1))) = _
  have e0 := idx6_0 t
  have e1 := idx6_1 t
  have e : ((cfg0.win 6).blk t).view.emb (ix2 p (0 : Fin 1)) = ix2 (rowOf t p) (0 : Fin 1) := by
    funext a; apply Fin.ext
    match a with
    | ⟨0, _⟩ => show win0_6.index t (0 : Fin 2) * 256 + 1 * p.val = 256 * (t.val / 8) + p.val; omega
    | ⟨1, _⟩ => show win0_6.index t (1 : Fin 2) * 1 + 1 * 0 = 0; omega
  rw [e]
  exact V_main_v8 m c (rowOf t p)
theorem blk7_apply (c : Dev nD) (t : Fin cfg0.N) (q : Fin 512) : blk7 m c t (ix2 (0 : Fin 1) q) = Cert.Spec.sq (yin m c) (colOf t q) := by
  show V m c main_v9 (((cfg0.win 7).blk t).view.emb (ix2 (0 : Fin 1) q)) = _
  have e0 := idx7_0 t
  have e1 := idx7_1 t
  have e : ((cfg0.win 7).blk t).view.emb (ix2 (0 : Fin 1) q) = ix2 (0 : Fin 1) (colOf t q) := by
    funext a; apply Fin.ext
    match a with
    | ⟨0, _⟩ => show win0_7.index t (0 : Fin 2) * 1 + 1 * 0 = 0; omega
    | ⟨1, _⟩ => show win0_7.index t (1 : Fin 2) * 512 + 1 * q.val = 512 * (t.val % 8) + q.val; omega
  rw [e]
  exact V_main_v9 m c (colOf t q)

end Cert.KernelIdeal.Val

end
-- ==== Proof.FrameKernelIdeal.Pieces.lean ====
/-
  What each kind of grid point leaves, as the program's own arithmetic of the blocks it was handed. At every point the
  body forms one partial sum from its eight input blocks: the two distance blocks (each the sum of a column of squared
  norms and a row of squared norms, less twice a matrix product), the first scaled, the second scaled, multiplied
  together and summed along each row. The accumulator after the first point of a row is the cleared block plus that
  partial sum; after any later point it is what the point before left plus the partial sum; and at the last point of a
  row the output block is zero minus the accumulator. Each statement reads the stored pieces back: the last store
  covers the whole 256 × 1 buffer, so the read-back is its payload, and the payload's loads read the whole input blocks.
-/
import proofs.«157485_j45664092291536_1_alg».proof.Proof.FrameKernelIdeal.Data
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Both offsets of a whole-buffer access are zero. -/
theorem hz2 : (![0, 0] : Fin 2 → Nat) = fun _ => 0 := funext fun a => by fin_cases a <;> rfl

/-- First point of a row: the accumulator is cleared, read back, and takes the point's partial sum. -/
theorem sout0_A_0_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7
      = k0_pay1 (k0_pay4 x0 x1 x4 x5) (k0_pay5 x2 x3 x6 x7) (k0_pay6 (F := F)) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread, harg5.read_unread, harg6.read_unread, harg7.read_unread, harg8.read_unread, harg9.read_unread, View.ld_unit_zero (S := S256x4096) hz2, View.ld_unit_zero (S := S512x4096) hz2, View.ld_unit_zero (S := S256x1) hz2, View.ld_unit_zero (S := S1x512) hz2]

/-- A middle point of a row: the accumulator, at what the point before left, takes the point's partial sum. -/
theorem sout0_B_0_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : ¬cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0
      = k0_pay1 (k0_pay4 x0 x1 x4 x5) (k0_pay5 x2 x3 x6 x7) (k0_pay6 (F := F)) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S256x4096) hz2, View.ld_unit_zero (S := S512x4096) hz2, View.ld_unit_zero (S := S256x1) hz2, View.ld_unit_zero (S := S1x512) hz2]

/-- The last point of a row: the accumulator takes the point's partial sum as at a middle point. -/
theorem sout0_C_0_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0
      = k0_pay1 (k0_pay4 x0 x1 x4 x5) (k0_pay5 x2 x3 x6 x7) (k0_pay6 (F := F)) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  dsimp only
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S256x4096) hz2, View.ld_unit_zero (S := S512x4096) hz2, View.ld_unit_zero (S := S256x1) hz2, View.ld_unit_zero (S := S1x512) hz2]

/-- The last point of a row: the output block is zero minus the accumulator just updated. -/
theorem out0_C_8_eq (c : Dev nD) (i : grid0.Coords) (arg2 : Memref sig .tc .vmem S256x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S512x4096 .bf16) (harg5 : arg5.IsWhole) (arg6 : Memref sig .tc .vmem S256x1 .f32) (harg6 : arg6.IsWhole) (arg7 : Memref sig .tc .vmem S1x512 .f32) (harg7 : arg7.IsWhole) (arg8 : Memref sig .tc .vmem S256x1 .f32) (harg8 : arg8.IsWhole) (arg9 : Memref sig .tc .vmem S1x512 .f32) (harg9 : arg9.IsWhole) (arg10 : Memref sig .tc .vmem S256x1 .f32) (harg10 : arg10.IsWhole) (arg11 : Memref sig .tc .vmem S256x1 .f32) (harg11 : arg11.IsWhole) (hc0 : ¬cond0_0 i) (hc1 : cond0_1 i)
    (x0 : Vec F S256x4096 .bf16) (x1 : Vec F S512x4096 .bf16) (x2 : Vec F S256x4096 .bf16) (x3 : Vec F S512x4096 .bf16) (x4 : Vec F S256x1 .f32) (x5 : Vec F S1x512 .f32) (x6 : Vec F S256x1 .f32) (x7 : Vec F S1x512 .f32) (xs0 : Vec F S256x1 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0
      = k0_pay2 (k0_pay1 (k0_pay4 x0 x1 x4 x5) (k0_pay5 x2 x3 x6 x7) (k0_pay6 (F := F)) xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  dsimp only
  rw [View.canon_unit_zero hz2]
  simp only [View.readCov_unit_zero (S := S256x1) _ hz2, View.readAt_eq_ld, harg2.read_unread, harg3.read_unread, harg4.read_unread, harg5.read_unread, harg6.read_unread, harg7.read_unread, harg8.read_unread, harg9.read_unread, harg11.read_unread, View.ld_unit_zero (S := S256x4096) hz2, View.ld_unit_zero (S := S512x4096) hz2, View.ld_unit_zero (S := S256x1) hz2, View.ld_unit_zero (S := S1x512) hz2]

end Cert.KernelIdeal.Frame

end
-- ==== Proof.Payload.lean ====
import proofs.«157485_j45664092291536_1_alg».proof.Proof.Gen.KernelIdeal.Skeleton
import proofs.«157485_j45664092291536_1_alg».proof.Proof.Spec
import Idealize.ShloMosaic.Lib.ValueIdx
import Idealize.ShloMosaic.Lib.Pipeline.Value
import Idealize.ShloMosaic.Lib.ValueLayout
import Idealize.ShloMosaic.PureOps.Ideal.Laws

/-!
  The kernel's arithmetic, read at an index over the extended reals. One grid step holds a block of 256 rows `p` and a
  block of 512 rows `q` of each argument, with their squared norms as a column `[256, 1]` and a row `[1, 512]`. For each
  argument it forms `(norm p + norm q) - 2 * ∑ k, a p k * b q k` at `(p, q)` (the contraction over the 4096 columns, into a
  zero accumulator); it multiplies the first argument's matrix by `2⁻¹²` and the second's by `2⁻¹²`, multiplies the two, sums the
  512 lanes of each row and adds the row sums to a running column; the running column starts at `0` and is at last
  subtracted from `0`. No sum is evaluated and no input is asked to be finite: each statement is the operation's
  definition at an index, with `0 + s = s` for the zero accumulator.
-/

noncomputable section

open scoped BigOperators

namespace Cert.KernelIdeal.Payload

open Cert.KernelIdeal Cert.KernelIdeal.Gen Idealize.ShloMosaic Idealize.ShloMosaic.ValueIdx Idealize.SL.Sem

/-! ### A column of row values: its cast from a vector, and its broadcast along the rows -/

section Column
variable {α : Type}

/-- An `[a]` array cast to `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ### The contraction of a block of 256 rows with a block of 512 rows, over the 4096 columns -/

/-- The left operand's row is the result's row. -/
theorem lhs_axis0 (i : S256x512.Idx) (c : dot_S256x4096_S512x4096_S256x512_1_1_0_0_n_n.contr.Idx) :
    (dot_S256x4096_S512x4096_S256x512_1_1_0_0_n_n.lhsIdx i c 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
/-- The left operand's column is the contraction index. -/
theorem lhs_axis1 (i : S256x512.Idx) (c : dot_S256x4096_S512x4096_S256x512_1_1_0_0_n_n.contr.Idx) :
    (dot_S256x4096_S512x4096_S256x512_1_1_0_0_n_n.lhsIdx i c 1).val = (c ⟨0, by decide⟩).val :=
  dot_S256x4096_S512x4096_S256x512_1_1_0_0_n_n.lhsIdx_val_of_single rfl i c
/-- The right operand's row is the result's column. -/
theorem rhs_axis0 (i : S256x512.Idx) (c : dot_S256x4096_S512x4096_S256x512_1_1_0_0_n_n.contr.Idx) :
    (dot_S256x4096_S512x4096_S256x512_1_1_0_0_n_n.rhsIdx i c 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
/-- The right operand's column is the contraction index. -/
theorem rhs_axis1 (i : S256x512.Idx) (c : dot_S256x4096_S512x4096_S256x512_1_1_0_0_n_n.contr.Idx) :
    (dot_S256x4096_S512x4096_S256x512_1_1_0_0_n_n.rhsIdx i c 1).val = (c ⟨0, by decide⟩).val :=
  dot_S256x4096_S512x4096_S256x512_1_1_0_0_n_n.rhsIdx_val_of_single rfl i c

/-- Into the zero accumulator, the product at `(p, q)` is the inner product of row `p` of the left block with row `q` of
    the right block. -/
theorem matmul_zero_apply (l : FVec Ideal S256x4096 .bf16) (r : FVec Ideal S512x4096 .bf16) (p : Fin 256) (q : Fin 512) :
    matmul dot_S256x4096_S512x4096_S256x512_1_1_0_0_n_n none l r (constant (F := Ideal) S256x512 .f32 0x00000000#32) (ix2 p q)
      = ∑ k : Fin 4096, l (ix2 p k) * r (ix2 q k) := by
  simp only [matmul]
  rw [Ideal.matmul_constant_zero_apply, ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx (ix2 p q) ((ValueIdx.contrEquiv1 dot_S256x4096_S512x4096_S256x512_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S256x4096_S512x4096_S256x512_1_1_0_0_n_n.rhsIdx (ix2 p q) ((ValueIdx.contrEquiv1 dot_S256x4096_S512x4096_S256x512_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-! ### The sum of a row's 512 lanes -/

/-- The lane sum at row `p` is the sum over the 512 columns of that row, whatever proofs its side conditions carry. -/
theorem laneSum_apply (src : FVec Ideal S256x512 .f32) (hφ : FKind.Formats .f32)
    (hacc : (0x00000000#32 : BitVec 32) = FKind.add.neutral .f32 hφ) (p : Fin 256) :
    multiReduction (F := Ideal) .add [1] S256 src 0x00000000#32 reduces_S256x512_S256 hφ hacc (ix1 p)
      = ∑ q : Fin 512, src (ix2 p q) := by
  refine (Ideal.multiReduction_add_single src 0x00000000#32 reduces_S256x512_S256 hφ hacc (ix1 p)).trans ?_
  refine Finset.sum_congr rfl fun q _ => congrArg src ?_
  exact funext fun a => Fin.ext (by match a with | ⟨0, _⟩ => rfl | ⟨1, _⟩ => rfl)

/-! ### The six payloads -/

/-- One argument's block of the Gram-identity matrix: `(norm p + norm q) - 2 * ⟨row p, row q⟩` at `(p, q)`. -/
theorem pay4_apply (v3 : Vec Ideal S256x4096 .bf16) (v5 : Vec Ideal S512x4096 .bf16) (v13 : Vec Ideal S256x1 .f32)
    (v15 : Vec Ideal S1x512 .f32) (p : Fin 256) (q : Fin 512) :
    k0_pay4 (F := Ideal) v3 v5 v13 v15 (ix2 p q)
      = (v13 (ix2 p 0) + v15 (ix2 0 q)) - Cert.Spec.two * ∑ k : Fin 4096, v3 (ix2 p k) * v5 (ix2 q k) := by
  simp only [k0_pay4, shapeCast_self, subf_apply, addf_apply, mulf_apply, broadcast_apply, broadcastTo_a1_ab_apply,
    broadcastTo_1b_ab_apply, matmul_zero_apply]
  rfl

/-- The other argument's block, the same function of its own four operands. -/
theorem pay5_apply (v8 : Vec Ideal S256x4096 .bf16) (v10 : Vec Ideal S512x4096 .bf16) (v23 : Vec Ideal S256x1 .f32)
    (v25 : Vec Ideal S1x512 .f32) (p : Fin 256) (q : Fin 512) :
    k0_pay5 (F := Ideal) v8 v10 v23 v25 (ix2 p q)
      = (v23 (ix2 p 0) + v25 (ix2 0 q)) - Cert.Spec.two * ∑ k : Fin 4096, v8 (ix2 p k) * v10 (ix2 q k) := by
  simp only [k0_pay5, shapeCast_self, subf_apply, addf_apply, mulf_apply, broadcast_apply, broadcastTo_a1_ab_apply,
    broadcastTo_1b_ab_apply, matmul_zero_apply]
  rfl

/-- The splat of `2⁻¹²` reads `2⁻¹²` everywhere. -/
theorem pay6_apply (p : Fin 256) (q : Fin 512) : k0_pay6 (F := Ideal) (ix2 p q) = Cert.Spec.invD := rfl

/-- The running column starts at `0`. -/
theorem pay3_apply (p : Fin 256) : k0_pay3 (F := Ideal) (ix2 p 0) = 0 := by
  simp only [k0_pay3, shapeCast_self, broadcast_apply]
  exact Cert.Spec.ofBits_zero

/-- The last step subtracts the running column from `0`, that is, negates it. -/
theorem pay2_apply (v48 : Vec Ideal S256x1 .f32) (p : Fin 256) :
    k0_pay2 (F := Ideal) v48 (ix2 p 0) = - v48 (ix2 p 0) := by
  simp only [k0_pay2, subf_apply, broadcast_apply]
  exact (congrArg (· - v48 (ix2 p 0)) Cert.Spec.ofBits_zero).trans (Cert.Spec.zero_sub_eq_neg _)

/-- One step adds to the running column, at row `p`, the sum over the 512 lanes of the product of the first
    argument's entry times `2⁻¹²` with the second argument's entry times `2⁻¹²`. -/
theorem pay1_apply (v22 v32 v33 : FVec Ideal S256x512 .f32) (v37 : Vec Ideal S256x1 .f32) (p : Fin 256) :
    k0_pay1 (F := Ideal) v22 v32 v33 v37 (ix2 p 0)
      = v37 (ix2 p 0) + ∑ q : Fin 512, (v22 (ix2 p q) * v33 (ix2 p q)) * (v32 (ix2 p q) * Cert.Spec.invD) := by
  simp only [k0_pay1, shapeCast_self, addf_apply, shapeCast_a_a1_apply]
  exact congrArg (v37 (ix2 p 0) + ·) (laneSum_apply _ _ _ p)

end Cert.KernelIdeal.Payload

end
-- ==== Proof.ValueKernelIdeal.Acc.lean ====
/-
  The accumulation over a row of the grid, at the ideal instance. At grid point t = 8·i + n the body adds to the
  accumulator's entry p the partial sum over the 512 rows `colOf t q` of `term x y (rowOf t p) (colOf t q)` — the
  product of the two mean squared differences, each `((sq r + sq n) - 2·gram r n)·2⁻¹²` from the block's row norms and
  one inner product over the 4096 columns —, the accumulator cleared where n = 0. So after point t the entry holds the
  sum over the first (n + 1)·512 rows, and where n = 7 what is stored into the output block is minus the sum over all
  4096 rows: the specification's value at row `rowOf t p`.
-/
import proofs.«157485_j45664092291536_1_alg».proof.Proof.ValueKernelIdeal.Blocks
import proofs.«157485_j45664092291536_1_alg».proof.Proof.FrameKernelIdeal.Pieces
import proofs.«157485_j45664092291536_1_alg».proof.Proof.Payload

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ### One point's step

At every point the accumulator's new entry `p` is its old entry plus the sum over the block's 512 rows `colOf t q` of
`term x y (rowOf t p) (colOf t q)`: the first factor `(sq r + sq n - 2·gram r n)·2⁻¹²` is the first argument's mean
squared difference, the second the second argument's. -/

/-- The sum of `term x y r ·` over the 512 rows of block `j` (rows `512·j … 512·j + 511`); zero past the eighth block. -/
def blockSum (x y : Cert.Spec.Mat) (r : Fin 4096) (j : ℕ) : EReal :=
  if h : j < 8 then ∑ q : Fin 512, Cert.Spec.term x y r ⟨512 * j + q.val, by have := q.isLt; omega⟩ else 0

/-- What a point's arithmetic makes of the accumulator `xs0` it finds, from the point's eight input blocks. -/
def stepVal (c : Dev nD) (t : Fin cfg0.N) (xs0 : Vec Ideal S256x1 .f32) : Vec Ideal S256x1 .f32 :=
  k0_pay1 (F := Ideal) (k0_pay4 (blk0 m c t) (blk1 m c t) (blk4 m c t) (blk5 m c t))
    (k0_pay5 (blk2 m c t) (blk3 m c t) (blk6 m c t) (blk7 m c t)) (k0_pay6 (F := Ideal)) xs0

/-- Entry `p` after the step is entry `p` before it plus the block's partial sum at row `rowOf t p`. -/
theorem stepVal_apply (c : Dev nD) (t : Fin cfg0.N) (xs0 : Vec Ideal S256x1 .f32) (p : Fin 256) :
    stepVal m c t xs0 (ix2 p (0 : Fin 1))
      = xs0 (ix2 p (0 : Fin 1)) + blockSum (xin m c) (yin m c) (rowOf t p) (t.val % 8) := by
  unfold stepVal
  refine (Payload.pay1_apply _ _ _ xs0 p).trans ?_
  refine congrArg (xs0 (ix2 p (0 : Fin 1)) + ·) ?_
  rw [blockSum, dif_pos (Nat.mod_lt _ (by decide))]
  refine Finset.sum_congr rfl fun q _ => ?_
  rw [Payload.pay4_apply, Payload.pay5_apply, Payload.pay6_apply]
  simp only [blk0_apply m, blk1_apply m, blk2_apply m, blk3_apply m, blk4_apply m, blk5_apply m, blk6_apply m, blk7_apply m]
  rfl

/-! ### The recursion along the grid, in terms of the step -/

/-- At the first point of a row the step starts from the cleared accumulator. -/
theorem acc_first (c : Dev nD) (t : Fin cfg0.N) (h0 : t.val % 8 = 0) :
    (outsAt0 m c t.val t.isLt).2 = stepVal m c t (k0_pay3 (F := Ideal)) := by
  have h1 : ¬t.val % 8 = 7 := by omega
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (blk0 m c t) (blk1 m c t) (blk2 m c t) (blk3 m c t) (blk4 m c t) (blk5 m c t) (blk6 m c t) (blk7 m c t)

/-- At any later point of a row the step starts from what the point before left. -/
theorem acc_later (c : Dev nD) (t : Fin cfg0.N) (h0 : ¬t.val % 8 = 0) :
    (outsAt0 m c t.val t.isLt).2 = stepVal m c t (outsAt0 m c (t.val - 1) (Nat.lt_of_le_of_lt (Nat.sub_le _ _) t.isLt)).2 := by
  by_cases h1 : t.val % 8 = 7
  · rw [outsAt0_C m c t h0 h1]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (blk7 m c t) (outsAt0 m c (t.val - 1) (Nat.lt_of_le_of_lt (Nat.sub_le _ _) t.isLt)).2
  · rw [outsAt0_B m c t h0 h1]
    dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (blk7 m c t) (outsAt0 m c (t.val - 1) (Nat.lt_of_le_of_lt (Nat.sub_le _ _) t.isLt)).2

/-- At the last point of a row the output block is zero minus the accumulator the point leaves. -/
theorem out_last (c : Dev nD) (t : Fin cfg0.N) (h0 : ¬t.val % 8 = 0) (h1 : t.val % 8 = 7) :
    (outsAt0 m c t.val t.isLt).1 = k0_pay2 (F := Ideal) (outsAt0 m c t.val t.isLt).2 := by
  rw [outsAt0_C m c t h0 h1]
  dsimp only
  exact (out0_C_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (blk7 m c t) (outsAt0 m c (t.val - 1) (Nat.lt_of_le_of_lt (Nat.sub_le _ _) t.isLt)).2).trans
    (congrArg (k0_pay2 (F := Ideal)) (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (blk0 m c t) (blk1 m c t) (blk2 m c t) (blk3 m c t) (blk4 m c t) (blk5 m c t) (blk6 m c t) (blk7 m c t) (outsAt0 m c (t.val - 1) (Nat.lt_of_le_of_lt (Nat.sub_le _ _) t.isLt)).2).symm)

/-- The recursion's value depends on the position only. -/
theorem outsAt0_congr (c : Dev nD) (a b : ℕ) (ha : a < cfg0.N) (hb : b < cfg0.N) (h : a = b) :
    outsAt0 m c a ha = outsAt0 m c b hb := by
  subst h; rfl

/-! ### The invariant

After point `t = 8·i + n` entry `p` of the accumulator is the sum of the first `n + 1` block sums at row `rowOf t p`: the
first point of a row starts it at `0 + ` the first block sum, and each later point adds the next one to what the point
before left (the row of the matrices, `256·i + p`, is the same along a row of the grid). -/

theorem acc_apply (c : Dev nD) (n : ℕ) : ∀ t : Fin cfg0.N, t.val = n → ∀ p : Fin 256,
    (outsAt0 m c t.val t.isLt).2 (ix2 p (0 : Fin 1))
      = ∑ j ∈ Finset.range (t.val % 8 + 1), blockSum (xin m c) (yin m c) (rowOf t p) j := by
  induction n with
  | zero =>
    intro t ht p
    have h0 : t.val % 8 = 0 := by rw [ht]
    rw [acc_first m c t h0, stepVal_apply m, Payload.pay3_apply, zero_add, h0, Finset.sum_range_one]
  | succ n ih =>
    intro t ht p
    by_cases h0 : t.val % 8 = 0
    · rw [acc_first m c t h0, stepVal_apply m, Payload.pay3_apply, zero_add, h0, Finset.sum_range_one]
    · have hn : n < cfg0.N := by have := t.isLt; omega
      have hprev : (outsAt0 m c (t.val - 1) (Nat.lt_of_le_of_lt (Nat.sub_le _ _) t.isLt)).2 = (outsAt0 m c (⟨n, hn⟩ : Fin cfg0.N).val (⟨n, hn⟩ : Fin cfg0.N).isLt).2 :=
        congrArg Prod.snd (outsAt0_congr m c _ _ _ _ (by show t.val - 1 = n; omega))
      have hrow : rowOf ⟨n, hn⟩ p = rowOf t p :=
        Fin.ext (by show 256 * (n / 8) + p.val = 256 * (t.val / 8) + p.val; omega)
      have hmod : n % 8 + 1 = t.val % 8 := by omega
      rw [acc_later m c t h0, stepVal_apply m, hprev, ih ⟨n, hn⟩ rfl p, hrow]
      show ∑ j ∈ Finset.range (n % 8 + 1), blockSum (xin m c) (yin m c) (rowOf t p) j
          + blockSum (xin m c) (yin m c) (rowOf t p) (t.val % 8) = _
      rw [hmod, Finset.sum_range_succ]

/-! ### The eight block sums are the sum over all 4096 rows -/

theorem sum_blockSum (x y : Cert.Spec.Mat) (r : Fin 4096) :
    ∑ j ∈ Finset.range 8, blockSum x y r j = ∑ n : Fin 4096, Cert.Spec.term x y r n := by
  rw [Cert.Spec.sum_blocks, ← Fin.sum_univ_eq_sum_range (fun j => blockSum x y r j) 8]
  refine Finset.sum_congr rfl fun j _ => ?_
  rw [blockSum, dif_pos j.isLt]
  refine Finset.sum_congr rfl fun l _ => congrArg (Cert.Spec.term x y r) (Fin.ext ?_)
  show 512 * j.val + l.val = j.val * 512 + l.val
  rw [Nat.mul_comm]

/-! ### The output block at the last point of a row -/

/-- At the last point of a grid row, entry `p` of the output block is the result at row `rowOf t p`. -/
theorem out_eq (c : Dev nD) (t : Fin cfg0.N) (ht : t.val % 8 = 7) (p : Fin 256) :
    (outsAt0 m c t.val t.isLt).1 (ix2 p (0 : Fin 1)) = Cert.Spec.out (xin m c) (yin m c) (ix1 (rowOf t p)) := by
  have h0 : ¬t.val % 8 = 0 := by omega
  rw [out_last m c t h0 ht, Payload.pay2_apply, acc_apply m c t.val t rfl p, ht]
  exact congrArg (fun s => -s) (sum_blockSum _ _ _)

end Cert.KernelIdeal.Val

end
-- ==== Proof.ValueKernelIdeal.Final.lean ====
/-
  From the output blocks to @main's result, at the ideal instance. The region writes the output block back exactly at
  the last point of each grid row, block i of the 4096 × 1 result array at point 8·i + 7; those sixteen blocks tile
  the array, and each holds the specification's values at its rows, so after the region the array holds them at every
  row; the last reshape reads the column as the vector of 4096.
-/
import proofs.«157485_j45664092291536_1_alg».proof.Proof.ValueKernelIdeal.Acc
import proofs.«157485_j45664092291536_1_alg».proof.Proof.FrameKernelIdeal.Launch

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The whole result array as the region leaves it: at row r of the one column, the specification's value at r. -/
def colOut (c : Dev nD) : Vec Ideal S4096x1 .f32 :=
  fun i => Cert.Spec.out (xin m c) (yin m c) (ix1 (n := 4096) (i 0))

/-- The output window's index map over the grid: block t / 8 along the rows, block 0 along the one column. -/
theorem outIndex : ∀ t : Fin cfg0.N, win0_8.index t (0 : Fin 2) = t.val / 8 ∧ win0_8.index t (1 : Fin 2) = 0 :=
  (by decide +kernel : ∀ t : Fin grid0.N, _)

/-- What a writing point (the last of its grid row) writes back is its block of the whole result array: entry p of the
    block at point t sits at row 256·(t / 8) + p of the array. -/
theorem flushedOut_eq (c : Dev nD) (t : Fin cfg0.N) (hf : (cfg0.win 8).flush t = true) :
    (dats m 0 c).flushed 8 t = ((cfg0.win 8).blk t).view.read (Elt Ideal) (colOut m c) := by
  have ht : t.val % 8 = 7 := (flush0_8 t).mp hf
  show (cfg0.win 8).cut (grid0.coords t) ((dats m 0 c).after 8 t) = _
  rw [after0_8]
  funext j
  obtain ⟨p, q, rfl⟩ : ∃ (p : Fin 256) (q : Fin 1), j = ix2 p q := ⟨j 0, j 1, eq_ix2 j⟩
  obtain rfl : q = 0 := Subsingleton.elim _ _
  rw [View.read_apply]
  show (outsAt0 m c t.val t.isLt).1 (ix2 p (0 : Fin 1)) = colOut m c (((cfg0.win 8).blk t).view.emb (ix2 p (0 : Fin 1)))
  rw [out_eq m c t ht p]
  show Cert.Spec.out (xin m c) (yin m c) (ix1 (rowOf t p))
    = Cert.Spec.out (xin m c) (yin m c) (ix1 (n := 4096) ((((cfg0.win 8).blk t).view.emb (ix2 p (0 : Fin 1))) 0))
  have e : rowOf t p = ((((cfg0.win 8).blk t).view.emb (ix2 p (0 : Fin 1))) 0 : Fin 4096) := by
    apply Fin.ext
    show 256 * (t.val / 8) + p.val = win0_8.index t (0 : Fin 2) * 256 + 1 * p.val
    rw [(outIndex t).1]; omega
  rw [e]

/-- An index of the array is in point t's block iff each coordinate is in the block's range on its axis. -/
theorem mem_outBlk (t : Fin cfg0.N) (i : S4096x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_v10).slice (win0_8.rect t)).set ↔ _
  rw [View.set_slice_whole, Rect.mem_set_unit]
  exact Iff.rfl

/-- Row r of the array lies in the block written back at the last point of grid row r / 256. -/
theorem outCover (i : S4096x1.Idx) :
    ∃ t : Fin cfg0.N, (cfg0.win 8).flush t = true ∧ i ∈ ((cfg0.win 8).blk t).view.set := by
  have hN : cfg0.N = 128 := N_0
  have hi0 : (i 0).val < 4096 := (i 0).isLt
  have hi1 : (i 1).val < 1 := (i 1).isLt
  have hlt : 8 * ((i 0).val / 256) + 7 < cfg0.N := by omega
  obtain ⟨e0, e1⟩ := outIndex ⟨8 * ((i 0).val / 256) + 7, hlt⟩
  refine ⟨⟨8 * ((i 0).val / 256) + 7, hlt⟩, (flush0_8 _).mpr (by show (8 * ((i 0).val / 256) + 7) % 8 = 7; omega), ?_⟩
  rw [mem_outBlk]
  intro a
  match a with
  | ⟨0, _⟩ =>
    show win0_8.index ⟨8 * ((i 0).val / 256) + 7, hlt⟩ (0 : Fin 2) * 256 ≤ (i 0).val
      ∧ (i 0).val < win0_8.index ⟨8 * ((i 0).val / 256) + 7, hlt⟩ (0 : Fin 2) * 256 + 256
    rw [e0]; show (8 * ((i 0).val / 256) + 7) / 8 * 256 ≤ (i 0).val ∧ (i 0).val < (8 * ((i 0).val / 256) + 7) / 8 * 256 + 256
    omega
  | ⟨1, _⟩ =>
    show win0_8.index ⟨8 * ((i 0).val / 256) + 7, hlt⟩ (1 : Fin 2) * 1 ≤ (i 1).val
      ∧ (i 1).val < win0_8.index ⟨8 * ((i 0).val / 256) + 7, hlt⟩ (1 : Fin 2) * 1 + 1
    rw [e1]; omega

/-- After the region the result array holds the specification's value at every row. -/
theorem arrOut_eq (c : Dev nD) : (dats m 0 c).arrAt 8 cfg0.N = colOut m c :=
  (dats m 0 c).arrAt_eq_of_cover 8 (colOut m c) (flushedOut_eq m c) outCover

/-- The last reshape reads row r of the column as entry r of the vector: the same row-major position. -/
theorem tailOut_apply (o : Vec Ideal S4096x1 .f32) (r : Fin 4096) :
    tailOut (F := Ideal) o (ix1 r) = o (ix2 r (0 : Fin 1)) := by
  unfold tailOut
  refine shapeCast_apply o shapeCasts_S4096x1_S4096 (ix1 r) (ix2 r (0 : Fin 1)) ?_
  rw [Shape.rowMajor_val_two, Shape.rowMajor_val_one]
  show r.val * 1 + 0 = r.val
  omega

/-- @main's result is the specification's function of the two arguments. -/
theorem result_eq (c : Dev nD) :
    tailOut (F := Ideal) ((dats m 0 c).arrAt 8 cfg0.N) = Cert.Spec.out (xin m c) (yin m c) := by
  rw [arrOut_eq]
  funext i
  obtain ⟨r, rfl⟩ : ∃ r : Fin 4096, i = ix1 r := ⟨i 0, eq_ix1 i⟩
  rw [tailOut_apply]
  rfl

end Cert.KernelIdeal.Val

end
-- ==== Proof.Ref.lean ====
import proofs.«157485_j45664092291536_1_alg».proof.Proof.Gen.ReferenceIdeal.Read
import proofs.«157485_j45664092291536_1_alg».proof.Proof.Spec

/-!
  The reference program computes the specification. Read one operation at a time, the reference's result at row `r` is
  `-(0 + ∑ n, (((0 + ∑ k, x r k * x r k) + (0 + ∑ k, x n k * x n k)) - 2 * ∑ k, x r k * x n k) / 4096 * (the same for y))`:
  the two broadcasts of the row norms read row `r` and row `n` of the same vector of squared norms, and the contraction reads
  row `r` against row `n`. With `0 + s = s` and `a / 4096 = a * 2⁻¹²` this is the specification's `out`, term by term.
-/

noncomputable section

open scoped BigOperators

namespace Cert.RefSide

open Cert.ReferenceIdeal Cert.ReferenceIdeal.Gen Cert.ReferenceIdeal.Read Idealize.ShloMosaic Idealize.ShloMosaic.ValueIdx

/-! ### Where each operation reads

Every index function of the reference, composed along the path from the result down to an argument, is a pair of
coordinates: the outer sum reads the product matrix at `(r, n)`; at that entry the row norm broadcast along columns sums
the squares at `(r, k)` and the one broadcast along rows those at `(n, k)`; the contraction reads its left operand at
`(r, k)` and its right operand at `(n, k)`. -/

/-- The outer sum over `n`, at row `r` of the result, reads the product matrix at `(r, n)`. -/
theorem outer_idx (r n : Fin 4096) : idx_main_v27 (ix1 r) n = ix2 r n :=
  funext fun a => Fin.ext (by match a with | ⟨0, _⟩ => rfl | ⟨1, _⟩ => rfl)

/-- The first argument's row norm, broadcast along columns, sums at `(r, n)` the squares of row `r`. -/
theorem normL_idx_x (r n k : Fin 4096) : idx_main_v1 (idx_main_v3 (idx_main_v5 (ix2 r n))) k = ix2 r k :=
  funext fun a => Fin.ext (by match a with | ⟨0, _⟩ => rfl | ⟨1, _⟩ => rfl)

/-- The first argument's row norm, broadcast along rows, sums at `(r, n)` the squares of row `n`. -/
theorem normR_idx_x (r n k : Fin 4096) : idx_main_v1 (idx_main_v4 (idx_main_v6 (ix2 r n))) k = ix2 n k :=
  funext fun a => Fin.ext (by match a with | ⟨0, _⟩ => rfl | ⟨1, _⟩ => rfl)

/-- The first argument's contraction at `(r, n)` reads its left operand in row `r`. -/
theorem dotL_idx_x (r n k : Fin 4096) : lidx_main_v2 (ix2 r n) k = ix2 r k :=
  funext fun a => Fin.ext (by match a with | ⟨0, _⟩ => rfl | ⟨1, _⟩ => rfl)

/-- The first argument's contraction at `(r, n)` reads its right operand in row `n`. -/
theorem dotR_idx_x (r n k : Fin 4096) : ridx_main_v2 (ix2 r n) k = ix2 n k :=
  funext fun a => Fin.ext (by match a with | ⟨0, _⟩ => rfl | ⟨1, _⟩ => rfl)

/-- The second argument's row norm, broadcast along columns, sums at `(r, n)` the squares of row `r`. -/
theorem normL_idx_y (r n k : Fin 4096) : idx_main_v14 (idx_main_v16 (idx_main_v18 (ix2 r n))) k = ix2 r k :=
  funext fun a => Fin.ext (by match a with | ⟨0, _⟩ => rfl | ⟨1, _⟩ => rfl)

/-- The second argument's row norm, broadcast along rows, sums at `(r, n)` the squares of row `n`. -/
theorem normR_idx_y (r n k : Fin 4096) : idx_main_v14 (idx_main_v17 (idx_main_v19 (ix2 r n))) k = ix2 n k :=
  funext fun a => Fin.ext (by match a with | ⟨0, _⟩ => rfl | ⟨1, _⟩ => rfl)

/-- The second argument's contraction at `(r, n)` reads its left operand in row `r`. -/
theorem dotL_idx_y (r n k : Fin 4096) : lidx_main_v15 (ix2 r n) k = ix2 r k :=
  funext fun a => Fin.ext (by match a with | ⟨0, _⟩ => rfl | ⟨1, _⟩ => rfl)

/-- The second argument's contraction at `(r, n)` reads its right operand in row `n`. -/
theorem dotR_idx_y (r n k : Fin 4096) : ridx_main_v15 (ix2 r n) k = ix2 n k :=
  funext fun a => Fin.ext (by match a with | ⟨0, _⟩ => rfl | ⟨1, _⟩ => rfl)

/-! ### One argument's matrix of mean squared differences -/

/-- The reference's quotient for the first argument, at `(r, n)`, is the specification's `mse`. -/
theorem quot_x (x0 : Cert.Spec.Mat) (r n : Fin 4096) :
    val_main_v12 (F := Ideal) x0 (ix2 r n) = Cert.Spec.mse x0 r n := by
  rw [val_main_v12_apply, val_main_v10_apply, val_main_v7_apply, val_main_v5_apply, val_main_v3_apply, val_main_v1_apply,
    val_main_v6_apply, val_main_v4_apply, val_main_v1_apply, val_main_v9_apply, val_main_v8_apply, val_main_cst_0_apply,
    val_main_v2_apply, val_main_v11_apply, val_main_cst_1_apply, val_main_cst_apply]
  simp only [val_main_v0_apply, normL_idx_x, normR_idx_x, dotL_idx_x, dotR_idx_x, Ideal.ofBits_def, Ideal.addf_def,
    Ideal.subf_def, Ideal.mulf_def, Ideal.hostDivf_def, Cert.Spec.ofBits_zero, zero_add, Cert.Spec.div_D]
  rfl

/-- The reference's quotient for the second argument, at `(r, n)`, is the specification's `mse`. -/
theorem quot_y (x1 : Cert.Spec.Mat) (r n : Fin 4096) :
    val_main_v25 (F := Ideal) x1 (ix2 r n) = Cert.Spec.mse x1 r n := by
  rw [val_main_v25_apply, val_main_v23_apply, val_main_v20_apply, val_main_v18_apply, val_main_v16_apply, val_main_v14_apply,
    val_main_v19_apply, val_main_v17_apply, val_main_v14_apply, val_main_v22_apply, val_main_v21_apply, val_main_cst_3_apply,
    val_main_v15_apply, val_main_v24_apply, val_main_cst_4_apply, val_main_cst_2_apply]
  simp only [val_main_v13_apply, normL_idx_y, normR_idx_y, dotL_idx_y, dotR_idx_y, Ideal.ofBits_def, Ideal.addf_def,
    Ideal.subf_def, Ideal.mulf_def, Ideal.hostDivf_def, Cert.Spec.ofBits_zero, zero_add, Cert.Spec.div_D]
  rfl

/-! ### The result -/

/-- The reference program's result is the specification: minus the sum over `n` of the product of the two mean squared
    differences of rows `r` and `n`, at every row `r`. -/
theorem ref_is_spec (x0 x1 : Cert.Spec.Mat) :
    Cert.ReferenceIdeal.Read.val_main_v28 (F := Ideal) x0 x1 = Cert.Spec.out x0 x1 := by
  funext i
  obtain ⟨r, rfl⟩ : ∃ r : Fin 4096, i = ix1 r := ⟨i 0, eq_ix1 i⟩
  rw [val_main_v28_apply, val_main_v27_apply, val_main_cst_5_apply]
  simp only [outer_idx, Ideal.ofBits_def, Ideal.hostNegf_def, Ideal.negf_def, Cert.Spec.ofBits_zero, zero_add]
  refine congrArg (fun s => -s) (Finset.sum_congr rfl fun n _ => ?_)
  rw [val_main_v26_apply, quot_x, quot_y]
  rfl

end Cert.RefSide

end
-- ==== Proof.lean ====
/-
  The certificate of a pairwise mean-squared-difference kernel against its reference. For two 4096 × 4096 matrices
  x and y, both programs compute, at row r, `-(∑ n, mse x r n * mse y r n)` with
  `mse z r n = ((sq z r + sq z n) - 2 * gram z r n) / 4096` (Proof/Spec.lean). The reference does it in whole-array
  operations; the kernel casts the matrices, computes the row norms on the host, and runs one pipelined region over a
  grid of 16 × 8 points that adds, for each block of 256 rows, eight partial sums over 512 rows into an accumulator
  and stores its negation at the row's last point. The three frames: the kernel's two by the region's launch with its
  two shared input arrays dealt to their windows half each (Proof/FrameKernel*/), the reference's its generated run.
  The ideal pass rewrote nothing, so `preserves` has nothing to state. Equal results: the reference's last stage
  is the specification (Proof/Ref.lean) and so is what the kernel's region leaves in its result array, read through
  the last reshape (Proof/ValueKernelIdeal/); no finiteness of the inputs is used.
-/
import proofs.«157485_j45664092291536_1_alg».proof.Defs
import proofs.«157485_j45664092291536_1_alg».proof.Proof.Gen.Kernel
import proofs.«157485_j45664092291536_1_alg».proof.Proof.Gen.KernelIdeal
import proofs.«157485_j45664092291536_1_alg».proof.Proof.Gen.ReferenceIdeal
import proofs.«157485_j45664092291536_1_alg».proof.Proof.Gen.Pre_finite_inputs
import proofs.«157485_j45664092291536_1_alg».proof.Proof.Gen.ReferenceIdeal.Run
import proofs.«157485_j45664092291536_1_alg».proof.Proof.FrameKernel.Frame
import proofs.«157485_j45664092291536_1_alg».proof.Proof.FrameKernelIdeal.Frame
import proofs.«157485_j45664092291536_1_alg».proof.Proof.ValueKernelIdeal.Final
import proofs.«157485_j45664092291536_1_alg».proof.Proof.Ref
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Frame.frame m ρ
theorem frame_ki : Cert.frame_KernelIdeal := fun m ρ _ => Cert.KernelIdeal.Frame.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of the two arguments in their result. -/
theorem algebraic : Cert.algebraic_KernelIdeal_ReferenceIdeal := by
  intro m ρ m' ρ' _ hagree
  refine ⟨fun c => Cert.Spec.out (Cert.KernelIdeal.Val.xin m c) (Cert.KernelIdeal.Val.yin m c), ?_, ?_⟩
  · exact (θ_run Cert.KernelIdeal.defs _ _).mono
      (fun _ h c => ⟨(h c).2.2.trans (Cert.KernelIdeal.Val.result_eq m c), (h c).1, (h c).2.1⟩)
      (Cert.KernelIdeal.Frame.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, (hagree c).1, (hagree c).2]
    exact Cert.RefSide.ref_is_spec _ _

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
